-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v26)) (v2 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_v72) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x256 : Shape := ⟨2, ![30000, 256]⟩
abbrev S512x256 : Shape := ⟨2, ![512, 256]⟩
abbrev S10000x256 : Shape := ⟨2, ![10000, 256]⟩
abbrev S262144 : Shape := ⟨1, ![262144]⟩
abbrev S131072 : Shape := ⟨1, ![131072]⟩
abbrev S256x256 : Shape := ⟨2, ![256, 256]⟩
abbrev S256 : Shape := ⟨1, ![256]⟩
abbrev S_ : Shape := ⟨0, ![]⟩

class Facts : Prop where
  bcast_S_S30000x256 : S_.BroadcastsInDim S30000x256 (![] : Fin 0 → Fin S30000x256.rank)
  reducesTo_S30000x256_S_d0_1 : S30000x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S10000x256 : S_.BroadcastsInDim S10000x256 (![] : Fin 0 → Fin S10000x256.rank)
  reducesTo_S10000x256_S_d0_1 : S10000x256.ReducesTo [0, 1] S_
  bcast_S_S262144 : S_.BroadcastsInDim S262144 (![] : Fin 0 → Fin S262144.rank)
  reducesTo_S262144_S_d0 : S262144.ReducesTo [0] S_
  bcast_S_S131072 : S_.BroadcastsInDim S131072 (![] : Fin 0 → Fin S131072.rank)
  reducesTo_S131072_S_d0 : S131072.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg17 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg17
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  main_v58

def fn_part2 {F : FTy → Type} [FloatOps F] (main_arg13 : FVec F S256 .f32) (main_arg14 : FVec F S256x256 .f32) (main_arg15 : FVec F S256 .f32) (main_arg16 : FVec F S256x256 .f32) (main_arg17 : FVec F S256 .f32) (main_v33 : IVec S_ 1) : IVec S_ 1 :=
  let main_v34 : FVec F S256 .f32 := Host.absf main_arg13
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg14
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg15
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg16
  let main_cst_18 : FVec F S_ .f32 := constant S_ .f32 0x7F800000#32
  let main_v50 : FVec F S256x256 .f32 := broadcastInDim S256x256 ![] bcast_S_S256x256 main_cst_18
  fn_part3 (F := F) main_arg17 main_v48 main_v49 main_v50

def fn_part1 {F : FTy → Type} [FloatOps F] (main_arg10 : FVec F S262144 .f32) (main_arg11 : FVec F S131072 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_v13 : IVec S_ 1) (main_v16 : IVec S262144 1) : IVec S_ 1 :=
  let main_c_5 : IVec S_ 1 := constantI S_ 1 1#1
  let main_v17 : IVec S_ 1 := (fun x v => Host.reduce IntOp.andi x v reducesTo_S262144_S_d0 h_S_) main_v16 main_c_5
  let main_v18 : IVec S_ 1 := andi main_v13 main_v17
  let main_v19 : FVec F S262144 .f32 := Host.absf main_arg10
  let main_cst_6 : FVec F S_ .f32 := constant S_ .f32 0x7F800000#32
  let main_v20 : FVec F S262144 .f32 := broadcastInDim S262144 ![] bcast_S_S262144 main_cst_6
  let main_v21 : IVec S262144 1 := cmpf .olt main_v19 main_v20
  let main_c_7 : IVec S_ 1 := constantI S_ 1 1#1
  let main_v22 : IVec S_ 1 := (fun x v => Host.reduce IntOp.andi x v reducesTo_S262144_S_d0 h_S_) main_v21 main_c_7
  let main_v23 : IVec S_ 1 := andi main_v18 main_v22
  let main_v24 : FVec F S131072 .f32 := Host.absf main_arg11
  let main_cst_8 : FVec F S_ .f32 := constant S_ .f32 0x7F800000#32
  let main_v25 : FVec F S131072 .f32 := broadcastInDim S131072 ![] bcast_S_S131072 main_cst_8
  let main_v26 : IVec S131072 1 := cmpf .olt main_v24 main_v25
  let main_c_9 : IVec S_ 1 := constantI S_ 1 1#1
  let main_v27 : IVec S_ 1 := (fun x v => Host.reduce IntOp.andi x v reducesTo_S131072_S_d0 h_S_) main_v26 main_c_9
  let main_v28 : IVec S_ 1 := andi main_v23 main_v27
  let main_v29 : FVec F S256x256 .f32 := Host.absf main_arg12
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg13 main_arg14 main_arg15 main_arg16 main_arg17 main_v33

def fn {F : FTy → Type} [FloatOps F] (main_arg0 : FVec F S30000x256 .f32) (main_arg1 : FVec F S512x256 .f32) (main_arg2 : FVec F S10000x256 .f32) (main_arg3 : IVec S262144 32) (main_arg4 : IVec S262144 32) (main_arg5 : IVec S262144 32) (main_arg6 : IVec S262144 32) (main_arg7 : IVec S131072 32) (main_arg8 : IVec S131072 32) (main_arg9 : FVec F S262144 .f32) (main_arg10 : FVec F S262144 .f32) (main_arg11 : FVec F S131072 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) : IVec S_ 1 :=
  let main_v0 : FVec F S30000x256 .f32 := Host.absf main_arg0
  let main_cst : FVec F S_ .f32 := constant S_ .f32 0x7F800000#32
  let main_v1 : FVec F S30000x256 .f32 := broadcastInDim S30000x256 ![] bcast_S_S30000x256 main_cst
  let main_v2 : IVec S30000x256 1 := cmpf .olt main_v0 main_v1
  let main_c : IVec S_ 1 := constantI S_ 1 1#1
  let main_v3 : IVec S_ 1 := (fun x v => Host.reduce IntOp.andi x v reducesTo_S30000x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S10000x256 .f32 := Host.absf main_arg2
  let main_cst_2 : FVec F S_ .f32 := constant S_ .f32 0x7F800000#32
  let main_v10 : FVec F S10000x256 .f32 := broadcastInDim S10000x256 ![] bcast_S_S10000x256 main_cst_2
  let main_v11 : IVec S10000x256 1 := cmpf .olt main_v9 main_v10
  let main_c_3 : IVec S_ 1 := constantI S_ 1 1#1
  let main_v12 : IVec S_ 1 := (fun x v => Host.reduce IntOp.andi x v reducesTo_S10000x256_S_d0_1 h_S_) main_v11 main_c_3
  let main_v13 : IVec S_ 1 := andi main_v8 main_v12
  let main_v14 : FVec F S262144 .f32 := Host.absf main_arg9
  let main_cst_4 : FVec F S_ .f32 := constant S_ .f32 0x7F800000#32
  let main_v15 : FVec F S262144 .f32 := broadcastInDim S262144 ![] bcast_S_S262144 main_cst_4
  let main_v16 : IVec S262144 1 := cmpf .olt main_v14 main_v15
  fn_part1 (F := F) main_arg10 main_arg11 main_arg12 main_arg13 main_arg14 main_arg15 main_arg16 main_arg17 main_v13 main_v16
-- ==== Kernel.lean ====
abbrev S30000x256 : Shape := ⟨2, ![30000, 256]⟩
abbrev S512x256 : Shape := ⟨2, ![512, 256]⟩
abbrev S10000x256 : Shape := ⟨2, ![10000, 256]⟩
abbrev S262144 : Shape := ⟨1, ![262144]⟩
abbrev S131072 : Shape := ⟨1, ![131072]⟩
abbrev S256x256 : Shape := ⟨2, ![256, 256]⟩
abbrev S256 : Shape := ⟨1, ![256]⟩
abbrev S1x256 : Shape := ⟨2, ![1, 256]⟩
abbrev S2000x256 : Shape := ⟨2, ![2000, 256]⟩
abbrev S_ : Shape := ⟨0, ![]⟩
abbrev S262144x1 : Shape := ⟨2, ![262144, 1]⟩
abbrev S262144x256 : Shape := ⟨2, ![262144, 256]⟩
abbrev S512 : Shape := ⟨1, ![512]⟩
abbrev S512x1 : Shape := ⟨2, ![512, 1]⟩
abbrev S10000 : Shape := ⟨1, ![10000]⟩
abbrev S10000x1 : Shape := ⟨2, ![10000, 1]⟩
abbrev S131072x1 : Shape := ⟨2, ![131072, 1]⟩
abbrev S131072x256 : Shape := ⟨2, ![131072, 256]⟩

abbrev nBuf : Space → Nat
  | .hbm => 112
  | .vmem => 14
  | .smem => 0
  | _ => 0

abbrev bufTy : (tb : Table) → Fin (tcTables nBuf tb) → BufTy
  | .hbm, ⟨0, _⟩ => ⟨S30000x256, .f32⟩
  | .hbm, ⟨1, _⟩ => ⟨S512x256, .f32⟩
  | .hbm, ⟨2, _⟩ => ⟨S10000x256, .f32⟩
  | .hbm, ⟨3, _⟩ => ⟨S262144, .i32⟩
  | .hbm, ⟨4, _⟩ => ⟨S262144, .i32⟩
  | .hbm, ⟨5, _⟩ => ⟨S262144, .i32⟩
  | .hbm, ⟨6, _⟩ => ⟨S262144, .i32⟩
  | .hbm, ⟨7, _⟩ => ⟨S131072, .i32⟩
  | .hbm, ⟨8, _⟩ => ⟨S131072, .i32⟩
  | .hbm, ⟨9, _⟩ => ⟨S262144, .f32⟩
  | .hbm, ⟨10, _⟩ => ⟨S262144, .f32⟩
  | .hbm, ⟨11, _⟩ => ⟨S131072, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S1x256, .f32⟩
  | .hbm, ⟨19, _⟩ => ⟨S1x256, .f32⟩
  | .hbm, ⟨20, _⟩ => ⟨S30000x256, .f32⟩
  | .hbm, ⟨21, _⟩ => ⟨S30000x256, .f32⟩
  | .hbm, ⟨22, _⟩ => ⟨S1x256, .f32⟩
  | .hbm, ⟨23, _⟩ => ⟨S512x256, .f32⟩
  | .hbm, ⟨24, _⟩ => ⟨S_, .i32⟩
  | .hbm, ⟨25, _⟩ => ⟨S262144, .i32⟩
  | .hbm, ⟨26, _⟩ => ⟨S262144, .i1⟩
  | .hbm, ⟨27, _⟩ => ⟨S_, .i32⟩
  | .hbm, ⟨28, _⟩ => ⟨S262144, .i32⟩
  | .hbm, ⟨29, _⟩ => ⟨S262144, .i32⟩
  | .hbm, ⟨30, _⟩ => ⟨S262144, .i32⟩
  | .hbm, ⟨31, _⟩ => ⟨S262144x1, .i32⟩
  | .hbm, ⟨32, _⟩ => ⟨S262144x256, .f32⟩
  | .hbm, ⟨33, _⟩ => ⟨S262144x1, .f32⟩
  | .hbm, ⟨34, _⟩ => ⟨S262144x256, .f32⟩
  | .hbm, ⟨35, _⟩ => ⟨S262144x256, .f32⟩
  | .hbm, ⟨36, _⟩ => ⟨S_, .f32⟩
  | .hbm, ⟨37, _⟩ => ⟨S512x256, .f32⟩
  | .hbm, ⟨38, _⟩ => ⟨S262144x1, .i32⟩
  | .hbm, ⟨39, _⟩ => ⟨S512x256, .f32⟩
  | .hbm, ⟨40, _⟩ => ⟨S_, .f32⟩
  | .hbm, ⟨41, _⟩ => ⟨S262144, .f32⟩
  | .hbm, ⟨42, _⟩ => ⟨S_, .f32⟩
  | .hbm, ⟨43, _⟩ => ⟨S512, .f32⟩
  | .hbm, ⟨44, _⟩ => ⟨S262144x1, .i32⟩
  | .hbm, ⟨45, _⟩ => ⟨S512, .f32⟩
  | .hbm, ⟨46, _⟩ => ⟨S_, .f32⟩
  | .hbm, ⟨47, _⟩ => ⟨S512, .f32⟩
  | .hbm, ⟨48, _⟩ => ⟨S512, .f32⟩
  | .hbm, ⟨49, _⟩ => ⟨S512x1, .f32⟩
  | .hbm, ⟨50, _⟩ => ⟨S512x256, .f32⟩
  | .hbm, ⟨51, _⟩ => ⟨S512x256, .f32⟩
  | .hbm, ⟨52, _⟩ => ⟨S_, .i32⟩
  | .hbm, ⟨53, _⟩ => ⟨S262144, .i32⟩
  | .hbm, ⟨54, _⟩ => ⟨S262144, .i1⟩
  | .hbm, ⟨55, _⟩ => ⟨S_, .i32⟩
  | .hbm, ⟨56, _⟩ => ⟨S262144, .i32⟩
  | .hbm, ⟨57, _⟩ => ⟨S262144, .i32⟩
  | .hbm, ⟨58, _⟩ => ⟨S262144, .i32⟩
  | .hbm, ⟨59, _⟩ => ⟨S262144x1, .i32⟩
  | .hbm, ⟨60, _⟩ => ⟨S262144x256, .f32⟩
  | .hbm, ⟨61, _⟩ => ⟨S262144x1, .f32⟩
  | .hbm, ⟨62, _⟩ => ⟨S262144x256, .f32⟩
  | .hbm, ⟨63, _⟩ => ⟨S262144x256, .f32⟩
  | .hbm, ⟨64, _⟩ => ⟨S_, .f32⟩
  | .hbm, ⟨65, _⟩ => ⟨S10000x256, .f32⟩
  | .hbm, ⟨66, _⟩ => ⟨S262144x1, .i32⟩
  | .hbm, ⟨67, _⟩ => ⟨S10000x256, .f32⟩
  | .hbm, ⟨68, _⟩ => ⟨S_, .f32⟩
  | .hbm, ⟨69, _⟩ => ⟨S262144, .f32⟩
  | .hbm, ⟨70, _⟩ => ⟨S_, .f32⟩
  | .hbm, ⟨71, _⟩ => ⟨S10000, .f32⟩
  | .hbm, ⟨72, _⟩ => ⟨S262144x1, .i32⟩
  | .hbm, ⟨73, _⟩ => ⟨S10000, .f32⟩
  | .hbm, ⟨74, _⟩ => ⟨S_, .f32⟩
  | .hbm, ⟨75, _⟩ => ⟨S10000, .f32⟩
  | .hbm, ⟨76, _⟩ => ⟨S10000, .f32⟩
  | .hbm, ⟨77, _⟩ => ⟨S10000x1, .f32⟩
  | .hbm, ⟨78, _⟩ => ⟨S10000x256, .f32⟩
  | .hbm, ⟨79, _⟩ => ⟨S10000x256, .f32⟩
  | .hbm, ⟨80, _⟩ => ⟨S_, .i32⟩
  | .hbm, ⟨81, _⟩ => ⟨S131072, .i32⟩
  | .hbm, ⟨82, _⟩ => ⟨S131072, .i1⟩
  | .hbm, ⟨83, _⟩ => ⟨S_, .i32⟩
  | .hbm, ⟨84, _⟩ => ⟨S131072, .i32⟩
  | .hbm, ⟨85, _⟩ => ⟨S131072, .i32⟩
  | .hbm, ⟨86, _⟩ => ⟨S131072, .i32⟩
  | .hbm, ⟨87, _⟩ => ⟨S131072x1, .i32⟩
  | .hbm, ⟨88, _⟩ => ⟨S131072x256, .f32⟩
  | .hbm, ⟨89, _⟩ => ⟨S131072x1, .f32⟩
  | .hbm, ⟨90, _⟩ => ⟨S131072x256, .f32⟩
  | .hbm, ⟨91, _⟩ => ⟨S131072x256, .f32⟩
  | .hbm, ⟨92, _⟩ => ⟨S_, .f32⟩
  | .hbm, ⟨93, _⟩ => ⟨S10000x256, .f32⟩
  | .hbm, ⟨94, _⟩ => ⟨S131072x1, .i32⟩
  | .hbm, ⟨95, _⟩ => ⟨S10000x256, .f32⟩
  | .hbm, ⟨96, _⟩ => ⟨S_, .f32⟩
  | .hbm, ⟨97, _⟩ => ⟨S131072, .f32⟩
  | .hbm, ⟨98, _⟩ => ⟨S_, .f32⟩
  | .hbm, ⟨99, _⟩ => ⟨S10000, .f32⟩
  | .hbm, ⟨100, _⟩ => ⟨S131072x1, .i32⟩
  | .hbm, ⟨101, _⟩ => ⟨S10000, .f32⟩
  | .hbm, ⟨102, _⟩ => ⟨S_, .f32⟩
  | .hbm, ⟨103, _⟩ => ⟨S10000, .f32⟩
  | .hbm, ⟨104, _⟩ => ⟨S10000, .f32⟩
  | .hbm, ⟨105, _⟩ => ⟨S10000x1, .f32⟩
  | .hbm, ⟨106, _⟩ => ⟨S10000x256, .f32⟩
  | .hbm, ⟨107, _⟩ => ⟨S10000x256, .f32⟩
  | .hbm, ⟨108, _⟩ => ⟨S10000x256, .f32⟩
  | .hbm, ⟨109, _⟩ => ⟨S_, .f32⟩
  | .hbm, ⟨110, _⟩ => ⟨S10000x256, .f32⟩
  | .hbm, ⟨111, _⟩ => ⟨S10000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S512x256, .f32⟩
  | .local _ .vmem, ⟨11, _⟩ => ⟨S256x256, .f32⟩
  | .local _ .vmem, ⟨12, _⟩ => ⟨S1x256, .f32⟩
  | .local _ .vmem, ⟨13, _⟩ => ⟨S512x256, .f32⟩
  | _, _ => ⟨S30000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2_0 : Ref sig .tc := ⟨.hbm, 20, rfl⟩
abbrev main_v2_1 : Ref sig .tc := ⟨.hbm, 21, rfl⟩
abbrev main_v3 : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_1 : Ref sig .tc := ⟨.hbm, 40, rfl⟩
abbrev main_v18 : Ref sig .tc := ⟨.hbm, 41, rfl⟩
abbrev main_cst_2 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_3 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_4 : Ref sig .tc := ⟨.hbm, 52, rfl⟩
abbrev main_v27 : Ref sig .tc := ⟨.hbm, 53, rfl⟩
abbrev main_v28 : Ref sig .tc := ⟨.hbm, 54, rfl⟩
abbrev main_c_5 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_9 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_c_10 : Ref sig .tc := ⟨.hbm, 80, rfl⟩
abbrev main_v49 : Ref sig .tc := ⟨.hbm, 81, rfl⟩
abbrev main_v50 : Ref sig .tc := ⟨.hbm, 82, rfl⟩
abbrev main_c_11 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_12 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_13 : Ref sig .tc := ⟨.hbm, 96, rfl⟩
abbrev main_v62 : Ref sig .tc := ⟨.hbm, 97, rfl⟩
abbrev main_cst_14 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_15 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_call0_cst : Ref sig .tc := ⟨.hbm, 109, rfl⟩
abbrev main_call0_v0 : Ref sig .tc := ⟨.hbm, 110, rfl⟩
abbrev main_v72 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem1_0 : DmaSem sig := 11
abbrev cc1_sem2_0 : DmaSem sig := 12
abbrev cc1_sem3_0 : DmaSem sig := 13

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S512x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S512x256_S512x256_0_0 : ∀ a, (![0, 0] : Fin 2 → Nat) a + S512x256.size a ≤ S512x256.size a
  h_S512x256 : 0 < S512x256.numel
  broadcasts_S1x256_S512x256 : S1x256.Broadcasts S512x256
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x256_0_1 : S262144x1.BroadcastsInDim S262144x256 (![0, 1] : Fin 2 → Fin S262144x256.rank)
  bcast_S_S512x256 : S_.BroadcastsInDim S512x256 (![] : Fin 0 → Fin S512x256.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  bcast_S_S10000x256 : S_.BroadcastsInDim S10000x256 (![] : Fin 0 → Fin S10000x256.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x256_0_1 : S131072x1.BroadcastsInDim S131072x256 (![0, 1] : Fin 2 → Fin S131072x256.rank)
  dot_S2000x256_S256x256_S2000x256_1_0_0_1_n_n_wf : DotDims.WF S2000x256 S256x256 S2000x256 [1] [0] [0] [1] [] []
  dot_S512x256_S256x256_S512x256_1_0_0_1_n_n_wf : DotDims.WF S512x256 S256x256 S512x256 [1] [0] [0] [1] [] []
  gather_S30000x256_S262144x1_S262144x256_1_0_n_n_0_1_1256_wf : GatherDims.WF S30000x256 S262144x1 S262144x256 [1] [0] [] [0] [] 1 ![1, 256]
  scatter_S512x256_S262144x1_S262144x256_1_0_0_1_wf : ScatterDims.WF S512x256 S262144x1 S262144x256 [1] [0] [0] 1
  scatter_S512_S262144x1_S262144_n_0_0_1_wf : ScatterDims.WF S512 S262144x1 S262144 [] [0] [0] 1
  scatter_S10000x256_S262144x1_S262144x256_1_0_0_1_wf : ScatterDims.WF S10000x256 S262144x1 S262144x256 [1] [0] [0] 1
  scatter_S10000_S262144x1_S262144_n_0_0_1_wf : ScatterDims.WF S10000 S262144x1 S262144 [] [0] [0] 1
  gather_S512x256_S131072x1_S131072x256_1_0_n_n_0_1_1256_wf : GatherDims.WF S512x256 S131072x1 S131072x256 [1] [0] [] [0] [] 1 ![1, 256]
  scatter_S10000x256_S131072x1_S131072x256_1_0_0_1_wf : ScatterDims.WF S10000x256 S131072x1 S131072x256 [1] [0] [0] 1
  scatter_S10000_S131072x1_S131072_n_0_0_1_wf : ScatterDims.WF S10000 S131072x1 S131072 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S30000x256.size a
  hwx0_0 : ∀ i : grid0.Coords, EltTy.bits .f32 = 32 ∨ (Rect.block (s := S30000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S30000x256.size a
  hwx0_5 : ∀ i : grid0.Coords, EltTy.bits .f32 = 32 ∨ (Rect.block (s := S30000x256) S2000x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S30000x256.size a
  hwx0_6 : ∀ i : grid0.Coords, EltTy.bits .f32 = 32 ∨ (Rect.block (s := S30000x256) S2000x256.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S512x256.size a
  hwx1_0 : ∀ i : grid1.Coords, EltTy.bits .f32 = 32 ∨ (Rect.block (s := S512x256) S512x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S512x256.size a
  hwx1_3 : ∀ i : grid1.Coords, EltTy.bits .f32 = 32 ∨ (Rect.block (s := S512x256) S512x256.size (cc1_transform_3 i) (hinb1_3 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def gather_S30000x256_S262144x1_S262144x256_1_0_n_n_0_1_1256 : GatherDims S30000x256 S262144x1 S262144x256 where
  offsetDims := [1]
  collapsedSliceDims := [0]
  operandBatchingDims := []
  startIndicesBatchingDims := []
  startIndexMap := [0]
  indexVectorDim := 1
  sliceSizes := ![1, 256]
  wf := gather_S30000x256_S262144x1_S262144x256_1_0_n_n_0_1_1256_wf
def scatter_S512x256_S262144x1_S262144x256_1_0_0_1 : ScatterDims S512x256 S262144x1 S262144x256 where
  updateWindowDims := [1]
  insertedWindowDims := [0]
  scatterDimsToOperandDims := [0]
  indexVectorDim := 1
  wf := scatter_S512x256_S262144x1_S262144x256_1_0_0_1_wf
def scatter_S512_S262144x1_S262144_n_0_0_1 : ScatterDims S512 S262144x1 S262144 where
  updateWindowDims := []
  insertedWindowDims := [0]
  scatterDimsToOperandDims := [0]
  indexVectorDim := 1
  wf := scatter_S512_S262144x1_S262144_n_0_0_1_wf
def scatter_S10000x256_S262144x1_S262144x256_1_0_0_1 : ScatterDims S10000x256 S262144x1 S262144x256 where
  updateWindowDims := [1]
  insertedWindowDims := [0]
  scatterDimsToOperandDims := [0]
  indexVectorDim := 1
  wf := scatter_S10000x256_S262144x1_S262144x256_1_0_0_1_wf
def scatter_S10000_S262144x1_S262144_n_0_0_1 : ScatterDims S10000 S262144x1 S262144 where
  updateWindowDims := []
  insertedWindowDims := [0]
  scatterDimsToOperandDims := [0]
  indexVectorDim := 1
  wf := scatter_S10000_S262144x1_S262144_n_0_0_1_wf
def gather_S512x256_S131072x1_S131072x256_1_0_n_n_0_1_1256 : GatherDims S512x256 S131072x1 S131072x256 where
  offsetDims := [1]
  collapsedSliceDims := [0]
  operandBatchingDims := []
  startIndicesBatchingDims := []
  startIndexMap := [0]
  indexVectorDim := 1
  sliceSizes := ![1, 256]
  wf := gather_S512x256_S131072x1_S131072x256_1_0_n_n_0_1_1256_wf
def scatter_S10000x256_S131072x1_S131072x256_1_0_0_1 : ScatterDims S10000x256 S131072x1 S131072x256 where
  updateWindowDims := [1]
  insertedWindowDims := [0]
  scatterDimsToOperandDims := [0]
  indexVectorDim := 1
  wf := scatter_S10000x256_S131072x1_S131072x256_1_0_0_1_wf
def scatter_S10000_S131072x1_S131072_n_0_0_1 : ScatterDims S10000 S131072x1 S131072 where
  updateWindowDims := []
  insertedWindowDims := [0]
  scatterDimsToOperandDims := [0]
  indexVectorDim := 1
  wf := scatter_S10000_S131072x1_S131072_n_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg12) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg14) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S2000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S512x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg16) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x256.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S30000x256 : Shape := ⟨2, ![30000, 256]⟩
abbrev S512x256 : Shape := ⟨2, ![512, 256]⟩
abbrev S10000x256 : Shape := ⟨2, ![10000, 256]⟩
abbrev S262144 : Shape := ⟨1, ![262144]⟩
abbrev S131072 : Shape := ⟨1, ![131072]⟩
abbrev S256x256 : Shape := ⟨2, ![256, 256]⟩
abbrev S256 : Shape := ⟨1, ![256]⟩
abbrev S1x256 : Shape := ⟨2, ![1, 256]⟩
abbrev S_ : Shape := ⟨0, ![]⟩
abbrev S262144x1 : Shape := ⟨2, ![262144, 1]⟩
abbrev S262144x256 : Shape := ⟨2, ![262144, 256]⟩
abbrev S512 : Shape := ⟨1, ![512]⟩
abbrev S512x1 : Shape := ⟨2, ![512, 1]⟩
abbrev S10000 : Shape := ⟨1, ![10000]⟩
abbrev S10000x1 : Shape := ⟨2, ![10000, 1]⟩
abbrev S131072x1 : Shape := ⟨2, ![131072, 1]⟩
abbrev S131072x256 : Shape := ⟨2, ![131072, 256]⟩

abbrev nBuf : Space → Nat
  | .hbm => 121
  | .vmem => 0
  | .smem => 0
  | _ => 0

abbrev bufTy : (tb : Table) → Fin (tcTables nBuf tb) → BufTy
  | .hbm, ⟨0, _⟩ => ⟨S30000x256, .f32⟩
  | .hbm, ⟨1, _⟩ => ⟨S512x256, .f32⟩
  | .hbm, ⟨2, _⟩ => ⟨S10000x256, .f32⟩
  | .hbm, ⟨3, _⟩ => ⟨S262144, .i32⟩
  | .hbm, ⟨4, _⟩ => ⟨S262144, .i32⟩
  | .hbm, ⟨5, _⟩ => ⟨S262144, .i32⟩
  | .hbm, ⟨6, _⟩ => ⟨S262144, .i32⟩
  | .hbm, ⟨7, _⟩ => ⟨S131072, .i32⟩
  | .hbm, ⟨8, _⟩ => ⟨S131072, .i32⟩
  | .hbm, ⟨9, _⟩ => ⟨S262144, .f32⟩
  | .hbm, ⟨10, _⟩ => ⟨S262144, .f32⟩
  | .hbm, ⟨11, _⟩ => ⟨S131072, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S256x256, .f32⟩
  | .hbm, ⟨19, _⟩ => ⟨S30000x256, .f32⟩
  | .hbm, ⟨20, _⟩ => ⟨S1x256, .f32⟩
  | .hbm, ⟨21, _⟩ => ⟨S30000x256, .f32⟩
  | .hbm, ⟨22, _⟩ => ⟨S30000x256, .f32⟩
  | .hbm, ⟨23, _⟩ => ⟨S256x256, .f32⟩
  | .hbm, ⟨24, _⟩ => ⟨S30000x256, .f32⟩
  | .hbm, ⟨25, _⟩ => ⟨S1x256, .f32⟩
  | .hbm, ⟨26, _⟩ => ⟨S30000x256, .f32⟩
  | .hbm, ⟨27, _⟩ => ⟨S30000x256, .f32⟩
  | .hbm, ⟨28, _⟩ => ⟨S256x256, .f32⟩
  | .hbm, ⟨29, _⟩ => ⟨S512x256, .f32⟩
  | .hbm, ⟨30, _⟩ => ⟨S1x256, .f32⟩
  | .hbm, ⟨31, _⟩ => ⟨S512x256, .f32⟩
  | .hbm, ⟨32, _⟩ => ⟨S512x256, .f32⟩
  | .hbm, ⟨33, _⟩ => ⟨S_, .i32⟩
  | .hbm, ⟨34, _⟩ => ⟨S262144, .i32⟩
  | .hbm, ⟨35, _⟩ => ⟨S262144, .i1⟩
  | .hbm, ⟨36, _⟩ => ⟨S_, .i32⟩
  | .hbm, ⟨37, _⟩ => ⟨S262144, .i32⟩
  | .hbm, ⟨38, _⟩ => ⟨S262144, .i32⟩
  | .hbm, ⟨39, _⟩ => ⟨S262144, .i32⟩
  | .hbm, ⟨40, _⟩ => ⟨S262144x1, .i32⟩
  | .hbm, ⟨41, _⟩ => ⟨S262144x256, .f32⟩
  | .hbm, ⟨42, _⟩ => ⟨S262144x1, .f32⟩
  | .hbm, ⟨43, _⟩ => ⟨S262144x256, .f32⟩
  | .hbm, ⟨44, _⟩ => ⟨S262144x256, .f32⟩
  | .hbm, ⟨45, _⟩ => ⟨S_, .f32⟩
  | .hbm, ⟨46, _⟩ => ⟨S512x256, .f32⟩
  | .hbm, ⟨47, _⟩ => ⟨S262144x1, .i32⟩
  | .hbm, ⟨48, _⟩ => ⟨S512x256, .f32⟩
  | .hbm, ⟨49, _⟩ => ⟨S_, .f32⟩
  | .hbm, ⟨50, _⟩ => ⟨S262144, .f32⟩
  | .hbm, ⟨51, _⟩ => ⟨S_, .f32⟩
  | .hbm, ⟨52, _⟩ => ⟨S512, .f32⟩
  | .hbm, ⟨53, _⟩ => ⟨S262144x1, .i32⟩
  | .hbm, ⟨54, _⟩ => ⟨S512, .f32⟩
  | .hbm, ⟨55, _⟩ => ⟨S_, .f32⟩
  | .hbm, ⟨56, _⟩ => ⟨S512, .f32⟩
  | .hbm, ⟨57, _⟩ => ⟨S512, .f32⟩
  | .hbm, ⟨58, _⟩ => ⟨S512x1, .f32⟩
  | .hbm, ⟨59, _⟩ => ⟨S512x256, .f32⟩
  | .hbm, ⟨60, _⟩ => ⟨S512x256, .f32⟩
  | .hbm, ⟨61, _⟩ => ⟨S_, .i32⟩
  | .hbm, ⟨62, _⟩ => ⟨S262144, .i32⟩
  | .hbm, ⟨63, _⟩ => ⟨S262144, .i1⟩
  | .hbm, ⟨64, _⟩ => ⟨S_, .i32⟩
  | .hbm, ⟨65, _⟩ => ⟨S262144, .i32⟩
  | .hbm, ⟨66, _⟩ => ⟨S262144, .i32⟩
  | .hbm, ⟨67, _⟩ => ⟨S262144, .i32⟩
  | .hbm, ⟨68, _⟩ => ⟨S262144x1, .i32⟩
  | .hbm, ⟨69, _⟩ => ⟨S262144x256, .f32⟩
  | .hbm, ⟨70, _⟩ => ⟨S262144x1, .f32⟩
  | .hbm, ⟨71, _⟩ => ⟨S262144x256, .f32⟩
  | .hbm, ⟨72, _⟩ => ⟨S262144x256, .f32⟩
  | .hbm, ⟨73, _⟩ => ⟨S_, .f32⟩
  | .hbm, ⟨74, _⟩ => ⟨S10000x256, .f32⟩
  | .hbm, ⟨75, _⟩ => ⟨S262144x1, .i32⟩
  | .hbm, ⟨76, _⟩ => ⟨S10000x256, .f32⟩
  | .hbm, ⟨77, _⟩ => ⟨S_, .f32⟩
  | .hbm, ⟨78, _⟩ => ⟨S262144, .f32⟩
  | .hbm, ⟨79, _⟩ => ⟨S_, .f32⟩
  | .hbm, ⟨80, _⟩ => ⟨S10000, .f32⟩
  | .hbm, ⟨81, _⟩ => ⟨S262144x1, .i32⟩
  | .hbm, ⟨82, _⟩ => ⟨S10000, .f32⟩
  | .hbm, ⟨83, _⟩ => ⟨S_, .f32⟩
  | .hbm, ⟨84, _⟩ => ⟨S10000, .f32⟩
  | .hbm, ⟨85, _⟩ => ⟨S10000, .f32⟩
  | .hbm, ⟨86, _⟩ => ⟨S10000x1, .f32⟩
  | .hbm, ⟨87, _⟩ => ⟨S10000x256, .f32⟩
  | .hbm, ⟨88, _⟩ => ⟨S10000x256, .f32⟩
  | .hbm, ⟨89, _⟩ => ⟨S_, .i32⟩
  | .hbm, ⟨90, _⟩ => ⟨S131072, .i32⟩
  | .hbm, ⟨91, _⟩ => ⟨S131072, .i1⟩
  | .hbm, ⟨92, _⟩ => ⟨S_, .i32⟩
  | .hbm, ⟨93, _⟩ => ⟨S131072, .i32⟩
  | .hbm, ⟨94, _⟩ => ⟨S131072, .i32⟩
  | .hbm, ⟨95, _⟩ => ⟨S131072, .i32⟩
  | .hbm, ⟨96, _⟩ => ⟨S131072x1, .i32⟩
  | .hbm, ⟨97, _⟩ => ⟨S131072x256, .f32⟩
  | .hbm, ⟨98, _⟩ => ⟨S131072x1, .f32⟩
  | .hbm, ⟨99, _⟩ => ⟨S131072x256, .f32⟩
  | .hbm, ⟨100, _⟩ => ⟨S131072x256, .f32⟩
  | .hbm, ⟨101, _⟩ => ⟨S_, .f32⟩
  | .hbm, ⟨102, _⟩ => ⟨S10000x256, .f32⟩
  | .hbm, ⟨103, _⟩ => ⟨S131072x1, .i32⟩
  | .hbm, ⟨104, _⟩ => ⟨S10000x256, .f32⟩
  | .hbm, ⟨105, _⟩ => ⟨S_, .f32⟩
  | .hbm, ⟨106, _⟩ => ⟨S131072, .f32⟩
  | .hbm, ⟨107, _⟩ => ⟨S_, .f32⟩
  | .hbm, ⟨108, _⟩ => ⟨S10000, .f32⟩
  | .hbm, ⟨109, _⟩ => ⟨S131072x1, .i32⟩
  | .hbm, ⟨110, _⟩ => ⟨S10000, .f32⟩
  | .hbm, ⟨111, _⟩ => ⟨S_, .f32⟩
  | .hbm, ⟨112, _⟩ => ⟨S10000, .f32⟩
  | .hbm, ⟨113, _⟩ => ⟨S10000, .f32⟩
  | .hbm, ⟨114, _⟩ => ⟨S10000x1, .f32⟩
  | .hbm, ⟨115, _⟩ => ⟨S10000x256, .f32⟩
  | .hbm, ⟨116, _⟩ => ⟨S10000x256, .f32⟩
  | .hbm, ⟨117, _⟩ => ⟨S10000x256, .f32⟩
  | .hbm, ⟨118, _⟩ => ⟨S_, .f32⟩
  | .hbm, ⟨119, _⟩ => ⟨S10000x256, .f32⟩
  | .hbm, ⟨120, _⟩ => ⟨S10000x256, .f32⟩
  | _, _ => ⟨S30000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_1 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_4 : Ref sig .tc := ⟨.hbm, 61, rfl⟩
abbrev main_v37 : Ref sig .tc := ⟨.hbm, 62, rfl⟩
abbrev main_v38 : Ref sig .tc := ⟨.hbm, 63, rfl⟩
abbrev main_c_5 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_7 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_10 : Ref sig .tc := ⟨.hbm, 89, rfl⟩
abbrev main_v59 : Ref sig .tc := ⟨.hbm, 90, rfl⟩
abbrev main_v60 : Ref sig .tc := ⟨.hbm, 91, rfl⟩
abbrev main_c_11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_12 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_13 : Ref sig .tc := ⟨.hbm, 105, rfl⟩
abbrev main_v72 : Ref sig .tc := ⟨.hbm, 106, rfl⟩
abbrev main_cst_14 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_15 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_call0_cst : Ref sig .tc := ⟨.hbm, 118, rfl⟩
abbrev main_call0_v0 : Ref sig .tc := ⟨.hbm, 119, rfl⟩
abbrev main_v82 : Ref sig .tc := ⟨.hbm, 120, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S30000x256_0_1 : S1x256.BroadcastsInDim S30000x256 (![0, 1] : Fin 2 → Fin S30000x256.rank)
  bcast_S1x256_S512x256_0_1 : S1x256.BroadcastsInDim S512x256 (![0, 1] : Fin 2 → Fin S512x256.rank)
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x256_0_1 : S262144x1.BroadcastsInDim S262144x256 (![0, 1] : Fin 2 → Fin S262144x256.rank)
  bcast_S_S512x256 : S_.BroadcastsInDim S512x256 (![] : Fin 0 → Fin S512x256.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  bcast_S_S10000x256 : S_.BroadcastsInDim S10000x256 (![] : Fin 0 → Fin S10000x256.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x256_0_1 : S131072x1.BroadcastsInDim S131072x256 (![0, 1] : Fin 2 → Fin S131072x256.rank)
  dot_S30000x256_S256x256_S30000x256_1_0_0_1_n_n_wf : DotDims.WF S30000x256 S256x256 S30000x256 [1] [0] [0] [1] [] []
  dot_S512x256_S256x256_S512x256_1_0_0_1_n_n_wf : DotDims.WF S512x256 S256x256 S512x256 [1] [0] [0] [1] [] []
  gather_S30000x256_S262144x1_S262144x256_1_0_n_n_0_1_1256_wf : GatherDims.WF S30000x256 S262144x1 S262144x256 [1] [0] [] [0] [] 1 ![1, 256]
  scatter_S512x256_S262144x1_S262144x256_1_0_0_1_wf : ScatterDims.WF S512x256 S262144x1 S262144x256 [1] [0] [0] 1
  scatter_S512_S262144x1_S262144_n_0_0_1_wf : ScatterDims.WF S512 S262144x1 S262144 [] [0] [0] 1
  scatter_S10000x256_S262144x1_S262144x256_1_0_0_1_wf : ScatterDims.WF S10000x256 S262144x1 S262144x256 [1] [0] [0] 1
  scatter_S10000_S262144x1_S262144_n_0_0_1_wf : ScatterDims.WF S10000 S262144x1 S262144 [] [0] [0] 1
  gather_S512x256_S131072x1_S131072x256_1_0_n_n_0_1_1256_wf : GatherDims.WF S512x256 S131072x1 S131072x256 [1] [0] [] [0] [] 1 ![1, 256]
  scatter_S10000x256_S131072x1_S131072x256_1_0_0_1_wf : ScatterDims.WF S10000x256 S131072x1 S131072x256 [1] [0] [0] 1
  scatter_S10000_S131072x1_S131072_n_0_0_1_wf : ScatterDims.WF S10000 S131072x1 S131072 [] [0] [0] 1

variable [Facts₀]

def dot_S30000x256_S256x256_S30000x256_1_0_0_1_n_n : DotDims S30000x256 S256x256 S30000x256 where
  lhsContracting := [1]
  rhsContracting := [0]
  lhsNonContracting := [0]
  rhsNonContracting := [1]
  lhsBatch := []
  rhsBatch := []
  wf := dot_S30000x256_S256x256_S30000x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def gather_S30000x256_S262144x1_S262144x256_1_0_n_n_0_1_1256 : GatherDims S30000x256 S262144x1 S262144x256 where
  offsetDims := [1]
  collapsedSliceDims := [0]
  operandBatchingDims := []
  startIndicesBatchingDims := []
  startIndexMap := [0]
  indexVectorDim := 1
  sliceSizes := ![1, 256]
  wf := gather_S30000x256_S262144x1_S262144x256_1_0_n_n_0_1_1256_wf
def scatter_S512x256_S262144x1_S262144x256_1_0_0_1 : ScatterDims S512x256 S262144x1 S262144x256 where
  updateWindowDims := [1]
  insertedWindowDims := [0]
  scatterDimsToOperandDims := [0]
  indexVectorDim := 1
  wf := scatter_S512x256_S262144x1_S262144x256_1_0_0_1_wf
def scatter_S512_S262144x1_S262144_n_0_0_1 : ScatterDims S512 S262144x1 S262144 where
  updateWindowDims := []
  insertedWindowDims := [0]
  scatterDimsToOperandDims := [0]
  indexVectorDim := 1
  wf := scatter_S512_S262144x1_S262144_n_0_0_1_wf
def scatter_S10000x256_S262144x1_S262144x256_1_0_0_1 : ScatterDims S10000x256 S262144x1 S262144x256 where
  updateWindowDims := [1]
  insertedWindowDims := [0]
  scatterDimsToOperandDims := [0]
  indexVectorDim := 1
  wf := scatter_S10000x256_S262144x1_S262144x256_1_0_0_1_wf
def scatter_S10000_S262144x1_S262144_n_0_0_1 : ScatterDims S10000 S262144x1 S262144 where
  updateWindowDims := []
  insertedWindowDims := [0]
  scatterDimsToOperandDims := [0]
  indexVectorDim := 1
  wf := scatter_S10000_S262144x1_S262144_n_0_0_1_wf
def gather_S512x256_S131072x1_S131072x256_1_0_n_n_0_1_1256 : GatherDims S512x256 S131072x1 S131072x256 where
  offsetDims := [1]
  collapsedSliceDims := [0]
  operandBatchingDims := []
  startIndicesBatchingDims := []
  startIndexMap := [0]
  indexVectorDim := 1
  sliceSizes := ![1, 256]
  wf := gather_S512x256_S131072x1_S131072x256_1_0_n_n_0_1_1256_wf
def scatter_S10000x256_S131072x1_S131072x256_1_0_0_1 : ScatterDims S10000x256 S131072x1 S131072x256 where
  updateWindowDims := [1]
  insertedWindowDims := [0]
  scatterDimsToOperandDims := [0]
  indexVectorDim := 1
  wf := scatter_S10000x256_S131072x1_S131072x256_1_0_0_1_wf
def scatter_S10000_S131072x1_S131072_n_0_0_1 : ScatterDims S10000 S131072x1 S131072 where
  updateWindowDims := []
  insertedWindowDims := [0]
  scatterDimsToOperandDims := [0]
  indexVectorDim := 1
  wf := scatter_S10000_S131072x1_S131072_n_0_0_1_wf

class Facts : Prop extends Facts₀ where

variable [Facts]
-- ==== Proof.Tail.lean ====
/-
  The part of the computation that both programs carry out on the host after their linear layers, as functions of
  the layers' outputs.

  For one relation, with per-edge source and destination node numbers and a weight per edge: every edge takes the
  source node's row of the layer's output (a negative node number counted from the end), scales it by the edge's weight
  and adds it into its destination node's row; the row sums are divided by the number of edges arriving at the node, or
  by 1 where none arrives. The topic nodes receive one such mean, from the word nodes; the document nodes receive the
  sum of two, from the word nodes and from the topic nodes, cut off below at zero.
-/
import proofs.«171935_j14087492731175_1_alg».proof.Proof.Gen.KernelIdeal

noncomputable section

namespace Cert.KernelIdeal.Tail

open Cert.KernelIdeal Cert.KernelIdeal.Gen Idealize.ShloMosaic Idealize.ShloMosaic.TcCoe

variable {F : FTy → Type} [FloatOps F]

/-- Word nodes to topic nodes: the weighted mean, per topic node, of the rows of `wh` its edges name. -/
def wordToTopic (whWt : FVec F S30000x256 .f32) (a3 a4 : IVec S262144 32) (a9 : FVec F S262144 .f32) : FVec F S512x256 .f32 :=
  Host.divf (Host.scatterAdd scatter_S512x256_S262144x1_S262144x256_1_0_0_1 (broadcastInDim S512x256 ![] bcast_S_S512x256 (constant S_ .f32 0x00000000#32)) (broadcastInDim S262144x1 ![0] bcast_S262144_S262144x1_0 a4) (mulf (Host.gather gather_S30000x256_S262144x1_S262144x256_1_0_n_n_0_1_1256 whWt (broadcastInDim S262144x1 ![0] bcast_S262144_S262144x1_0 (select (cmpi .slt a3 (broadcastInDim S262144 ![] bcast_S_S262144 (constantI S_ 32 0#32))) (addi a3 (broadcastInDim S262144 ![] bcast_S_S262144 (constantI S_ 32 30000#32))) a3))) (broadcastInDim S262144x256 ![0, 1] bcast_S262144x1_S262144x256_0_1 (broadcastInDim S262144x1 ![0] bcast_S262144_S262144x1_0 a9)))) (broadcastInDim S512x256 ![0, 1] bcast_S512x1_S512x256_0_1 (broadcastInDim S512x1 ![0] bcast_S512_S512x1_0 (maximumf (Host.scatterAdd scatter_S512_S262144x1_S262144_n_0_0_1 (broadcastInDim S512 ![] bcast_S_S512 (constant S_ .f32 0x00000000#32)) (broadcastInDim S262144x1 ![0] bcast_S262144_S262144x1_0 a4) (broadcastInDim S262144 ![] bcast_S_S262144 (constant S_ .f32 0x3F800000#32))) (broadcastInDim S512 ![] bcast_S_S512 (constant S_ .f32 0x3F800000#32)))))

/-- Word nodes to document nodes. -/
def wordToDoc (whWd : FVec F S30000x256 .f32) (a5 a6 : IVec S262144 32) (a10 : FVec F S262144 .f32) : FVec F S10000x256 .f32 :=
  Host.divf (Host.scatterAdd scatter_S10000x256_S262144x1_S262144x256_1_0_0_1 (broadcastInDim S10000x256 ![] bcast_S_S10000x256 (constant S_ .f32 0x00000000#32)) (broadcastInDim S262144x1 ![0] bcast_S262144_S262144x1_0 a6) (mulf (Host.gather gather_S30000x256_S262144x1_S262144x256_1_0_n_n_0_1_1256 whWd (broadcastInDim S262144x1 ![0] bcast_S262144_S262144x1_0 (select (cmpi .slt a5 (broadcastInDim S262144 ![] bcast_S_S262144 (constantI S_ 32 0#32))) (addi a5 (broadcastInDim S262144 ![] bcast_S_S262144 (constantI S_ 32 30000#32))) a5))) (broadcastInDim S262144x256 ![0, 1] bcast_S262144x1_S262144x256_0_1 (broadcastInDim S262144x1 ![0] bcast_S262144_S262144x1_0 a10)))) (broadcastInDim S10000x256 ![0, 1] bcast_S10000x1_S10000x256_0_1 (broadcastInDim S10000x1 ![0] bcast_S10000_S10000x1_0 (maximumf (Host.scatterAdd scatter_S10000_S262144x1_S262144_n_0_0_1 (broadcastInDim S10000 ![] bcast_S_S10000 (constant S_ .f32 0x00000000#32)) (broadcastInDim S262144x1 ![0] bcast_S262144_S262144x1_0 a6) (broadcastInDim S262144 ![] bcast_S_S262144 (constant S_ .f32 0x3F800000#32))) (broadcastInDim S10000 ![] bcast_S_S10000 (constant S_ .f32 0x3F800000#32)))))

/-- Topic nodes to document nodes. -/
def topicToDoc (whTd : FVec F S512x256 .f32) (a7 a8 : IVec S131072 32) (a11 : FVec F S131072 .f32) : FVec F S10000x256 .f32 :=
  Host.divf (Host.scatterAdd scatter_S10000x256_S131072x1_S131072x256_1_0_0_1 (broadcastInDim S10000x256 ![] bcast_S_S10000x256 (constant S_ .f32 0x00000000#32)) (broadcastInDim S131072x1 ![0] bcast_S131072_S131072x1_0 a8) (mulf (Host.gather gather_S512x256_S131072x1_S131072x256_1_0_n_n_0_1_1256 whTd (broadcastInDim S131072x1 ![0] bcast_S131072_S131072x1_0 (select (cmpi .slt a7 (broadcastInDim S131072 ![] bcast_S_S131072 (constantI S_ 32 0#32))) (addi a7 (broadcastInDim S131072 ![] bcast_S_S131072 (constantI S_ 32 512#32))) a7))) (broadcastInDim S131072x256 ![0, 1] bcast_S131072x1_S131072x256_0_1 (broadcastInDim S131072x1 ![0] bcast_S131072_S131072x1_0 a11)))) (broadcastInDim S10000x256 ![0, 1] bcast_S10000x1_S10000x256_0_1 (broadcastInDim S10000x1 ![0] bcast_S10000_S10000x1_0 (maximumf (Host.scatterAdd scatter_S10000_S131072x1_S131072_n_0_0_1 (broadcastInDim S10000 ![] bcast_S_S10000 (constant S_ .f32 0x00000000#32)) (broadcastInDim S131072x1 ![0] bcast_S131072_S131072x1_0 a8) (broadcastInDim S131072 ![] bcast_S_S131072 (constant S_ .f32 0x3F800000#32))) (broadcastInDim S10000 ![] bcast_S_S10000 (constant S_ .f32 0x3F800000#32)))))

/-- The document nodes' result: the two means added, cut off below at zero. -/
def doc (whWd : FVec F S30000x256 .f32) (whTd : FVec F S512x256 .f32) (a5 a6 : IVec S262144 32) (a10 : FVec F S262144 .f32)
    (a7 a8 : IVec S131072 32) (a11 : FVec F S131072 .f32) : FVec F S10000x256 .f32 :=
  maximumf (addf (wordToDoc whWd a5 a6 a10) (topicToDoc whTd a7 a8 a11)) (broadcastInDim S10000x256 ![] bcast_S_S10000x256 (constant S_ .f32 0x00000000#32))

end Cert.KernelIdeal.Tail

end
-- ==== Proof.Fold.lean ====
/-
  The contents of the buffers at the boundaries of @main's segments, read back to the launch memory.

  @main is: two reshapes of bias vectors; the first kernel region; one reshape; the second kernel region; the host
  operations of the three aggregations; the final cut-off at zero. The contents at each boundary are a fold of these
  over the launch memory. Here each buffer that matters is read through the fold: a region's operand back to the
  argument (or the reshaped bias) it is, the aggregations' operands back to the regions' output arrays and the
  arguments, and the two results as the aggregations of those.
-/
import proofs.«171935_j14087492731175_1_alg».proof.Proof.Gen.KernelIdeal.Frame
import proofs.«171935_j14087492731175_1_alg».proof.Proof.Tail
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Idealize.ShloMosaic.Pipeline (Dat Cfg Window)

variable {F : FTy → Type} [FloatOps F]
variable (m : (ℓ : Loc nD τ sig) → Buf (Elt F) ℓ) (ρ : Dev nD → PrngReg)

/-! ## The first region's operands as it finds them -/

theorem V1_arg0 (c : Dev nD) : V1 m ρ c main_arg0 = m ((c : Thread nD τ).loc main_arg0) := by
  show StableHlo.after hostOps0 (W0 m ρ c) (Proc.devRef .tc main_arg0) = _
  after_results
theorem V1_arg12 (c : Dev nD) : V1 m ρ c main_arg12 = m ((c : Thread nD τ).loc main_arg12) := by
  show StableHlo.after hostOps0 (W0 m ρ c) (Proc.devRef .tc main_arg12) = _
  after_results
theorem V1_arg14 (c : Dev nD) : V1 m ρ c main_arg14 = m ((c : Thread nD τ).loc main_arg14) := by
  show StableHlo.after hostOps0 (W0 m ρ c) (Proc.devRef .tc main_arg14) = _
  after_results
/-- The first bias row is the first bias vector reshaped to one row. -/
theorem V1_v0 (c : Dev nD) : (V1 m ρ c main_v0 : Vec F S1x256 .f32) = shapeCast S1x256 (m ((c : Thread nD τ).loc main_arg13) : Vec F S256 .f32) shapeCasts_S256_S1x256 := by
  show StableHlo.after hostOps0 (W0 m ρ c) (Proc.devRef .tc main_v0) = _
  after_results; rfl
/-- The second bias row is the second bias vector reshaped to one row. -/
theorem V1_v1 (c : Dev nD) : (V1 m ρ c main_v1 : Vec F S1x256 .f32) = shapeCast S1x256 (m ((c : Thread nD τ).loc main_arg15) : Vec F S256 .f32) shapeCasts_S256_S1x256 := by
  show StableHlo.after hostOps0 (W0 m ρ c) (Proc.devRef .tc main_v1) = _
  after_results; rfl

/-! ## The second region's operands as it finds them -/

theorem V3_arg1 (c : Dev nD) : V3 m ρ c main_arg1 = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem V3_arg16 (c : Dev nD) : V3 m ρ c main_arg16 = m ((c : Thread nD τ).loc main_arg16) :=
  calc W3 m ρ c (Proc.devRef .tc main_arg16)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl
theorem W2_arg17 (c : Dev nD) : W2 m ρ c (Proc.devRef .tc main_arg17) = m ((c : Thread nD τ).loc main_arg17) :=
  calc W2 m ρ c (Proc.devRef .tc main_arg17)
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl
/-- The third bias row is the third bias vector reshaped to one row. -/
theorem V3_v3 (c : Dev nD) : (V3 m ρ c main_v3 : Vec F S1x256 .f32) = shapeCast S1x256 (m ((c : Thread nD τ).loc main_arg17) : Vec F S256 .f32) shapeCasts_S256_S1x256 := by
  rw [← W2_arg17 m ρ c]
  show StableHlo.after hostOps1 (W2 m ρ c) (Proc.devRef .tc main_v3) = _
  after_results; rfl

/-! ## The aggregations' operands at the second region's exit -/

/-- The first region's first output array is not touched again before the aggregations read it. -/
theorem W4_v2_0 (c : Dev nD) : W4 m ρ c (Proc.devRef .tc main_v2_0) = (dat0 (V1 m ρ) c).arrAt 5 cfg0.N :=
  calc W4 m ρ c (Proc.devRef .tc main_v2_0)
    _ = W3 m ρ c (Proc.devRef .tc main_v2_0) := W4_of_ne m ρ c main_v2_0 (by decide)
    _ = W2 m ρ c (Proc.devRef .tc main_v2_0) := StableHlo.after_of_forall_not_mem (b := Proc.devRef .tc main_v2_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 5 cfg0.N := W2_arr m ρ c 5
/-- Nor is its second. -/
theorem W4_v2_1 (c : Dev nD) : W4 m ρ c (Proc.devRef .tc main_v2_1) = (dat0 (V1 m ρ) c).arrAt 6 cfg0.N :=
  calc W4 m ρ c (Proc.devRef .tc main_v2_1)
    _ = W3 m ρ c (Proc.devRef .tc main_v2_1) := W4_of_ne m ρ c main_v2_1 (by decide)
    _ = W2 m ρ c (Proc.devRef .tc main_v2_1) := StableHlo.after_of_forall_not_mem (b := Proc.devRef .tc main_v2_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 6 cfg0.N := W2_arr m ρ c 6
/-- The second region's output array. -/
theorem W4_v4 (c : Dev nD) : W4 m ρ c (Proc.devRef .tc main_v4) = (dat1 (V3 m ρ) c).arrAt 3 cfg1.N := W4_arr m ρ c 3

/-- Argument 3 bypasses both regions and no host operation writes it: at the second region's exit it is as launched. -/
theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- Argument 4 bypasses both regions and no host operation writes it: at the second region's exit it is as launched. -/
theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- Argument 5 bypasses both regions and no host operation writes it: at the second region's exit it is as launched. -/
theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- Argument 6 bypasses both regions and no host operation writes it: at the second region's exit it is as launched. -/
theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- Argument 7 bypasses both regions and no host operation writes it: at the second region's exit it is as launched. -/
theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- Argument 8 bypasses both regions and no host operation writes it: at the second region's exit it is as launched. -/
theorem W4_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- Argument 9 bypasses both regions and no host operation writes it: at the second region's exit it is as launched. -/
theorem W4_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- Argument 10 bypasses both regions and no host operation writes it: at the second region's exit it is as launched. -/
theorem W4_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-- Argument 11 bypasses both regions and no host operation writes it: at the second region's exit it is as launched. -/
theorem W4_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

/-! ## The two results -/

set_option maxHeartbeats 8000000 in  -- some ninety host operations are walked back in one pass
/-- The topic nodes' result is the word-to-topic mean of the first region's first output. -/
theorem topic_eq (c : Dev nD) : W6 m ρ c (Proc.devRef .tc main_v26)
    = Tail.wordToTopic (W4 m ρ c (Proc.devRef .tc main_v2_0)) (W4 m ρ c (Proc.devRef .tc main_arg3)) (W4 m ρ c (Proc.devRef .tc main_arg4)) (W4 m ρ c (Proc.devRef .tc main_arg9)) := by
  show StableHlo.after hostOps2_1 (StableHlo.after hostOps2 (W4 m ρ c)) (Proc.devRef .tc main_v26) = _
  after_results_simp <;> rfl

set_option maxHeartbeats 8000000 in  -- some ninety host operations are walked back in one pass
/-- The document nodes' result is the sum of the two means into the document nodes, cut off below at zero. -/
theorem doc_eq (c : Dev nD) : W6 m ρ c (Proc.devRef .tc main_v72)
    = Tail.doc (W4 m ρ c (Proc.devRef .tc main_v2_1)) (W4 m ρ c (Proc.devRef .tc main_v4))
        (W4 m ρ c (Proc.devRef .tc main_arg5)) (W4 m ρ c (Proc.devRef .tc main_arg6)) (W4 m ρ c (Proc.devRef .tc main_arg10))
        (W4 m ρ c (Proc.devRef .tc main_arg7)) (W4 m ρ c (Proc.devRef .tc main_arg8)) (W4 m ρ c (Proc.devRef .tc main_arg11)) := by
  show StableHlo.after hostOps2_1 (StableHlo.after hostOps2 (W4 m ρ c)) (Proc.devRef .tc main_v72) = _
  after_results_simp <;> rfl

end Cert.KernelIdeal.Fold

end
-- ==== Proof.Lin.lean ====
/-
  One linear layer, entry by entry, on the extended reals.

  For a matrix `x` of `M` rows and 256 columns, a weight matrix `w` of 256 rows (one per output feature) and 256
  columns (one per input feature), and a bias of 256 entries, the layer's output at row `r` and feature `f` is

      (the sum over `k` of `x r k * w f k`) + `bias f`:

  the row of `x` against the row `f` of `w`, that is `x` times the transpose of `w`, plus the bias. Every linear
  layer of this certificate, on either side, is read down to this one function.
-/
import Idealize.ShloMosaic.PureOps.Ideal
import Idealize.ShloMosaic.Lib.ValueIdx

noncomputable section

open scoped BigOperators

namespace Cert.Lin

open Idealize.ShloMosaic Idealize.ShloMosaic.ValueIdx

/-- The row coordinate of an index of an `M × N` matrix. -/
abbrev row {M N : Nat} (i : (⟨2, ![M, N]⟩ : Shape).Idx) : Fin M := i 0
/-- The column coordinate of an index of an `M × N` matrix. -/
abbrev col {M N : Nat} (i : (⟨2, ![M, N]⟩ : Shape).Idx) : Fin N := i 1

/-- The linear layer `x · wᵀ + bias`, entry by entry. -/
def lin {M : Nat} (x : FVec Ideal ⟨2, ![M, 256]⟩ .f32) (w : FVec Ideal ⟨2, ![256, 256]⟩ .f32) (bias : Fin 256 → EReal) :
    FVec Ideal ⟨2, ![M, 256]⟩ .f32 :=
  fun i => (∑ k : Fin 256, x (ix2 (row i) k) * w (ix2 (col i) k)) + bias (col i)

/-- The layer at the entry of row `r`, feature `f`. -/
theorem lin_ix2 {M : Nat} (x : FVec Ideal ⟨2, ![M, 256]⟩ .f32) (w : FVec Ideal ⟨2, ![256, 256]⟩ .f32) (bias : Fin 256 → EReal)
    (r : Fin M) (f : Fin 256) :
    lin x w bias (ix2 r f) = (∑ k : Fin 256, x (ix2 r k) * w (ix2 f k)) + bias f := rfl

/-- The layer depends on `x` only through the row it is read at: two matrices that agree on a row, one placed at row
    `r` of the first and one at row `r'` of the second, give the same entries there. -/
theorem lin_row_congr {M M' : Nat} (x : FVec Ideal ⟨2, ![M, 256]⟩ .f32) (x' : FVec Ideal ⟨2, ![M', 256]⟩ .f32)
    (w : FVec Ideal ⟨2, ![256, 256]⟩ .f32) (bias : Fin 256 → EReal) (r : Fin M) (r' : Fin M') (f : Fin 256)
    (h : ∀ k : Fin 256, x (ix2 r k) = x' (ix2 r' k)) :
    lin x w bias (ix2 r f) = lin x' w bias (ix2 r' f) := by
  rw [lin_ix2, lin_ix2]
  exact congrArg (· + bias f) (Finset.sum_congr rfl fun k _ => by rw [h k])

end Cert.Lin

end
-- ==== Proof.Payload.lean ====
/-
  What the two kernels' bodies store, read entry by entry on the extended reals.

  Each body loads a block of rows `x`, a weight matrix `w` and a bias row `b` (a 1 × 256 matrix), narrows `x` and `w`
  to bf16 (no change of value on the extended reals), transposes `w`, multiplies on the matrix unit into a zero
  accumulator and adds the bias row broadcast down the rows. At row `r`, feature `f` that is the sum over `k` of
  `x r k * w f k` plus `b 0 f`: the linear layer `Lin.lin` of the block.
-/
import proofs.«171935_j14087492731175_1_alg».proof.Proof.Gen.KernelIdeal.Skeleton
import proofs.«171935_j14087492731175_1_alg».proof.Proof.Lin
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.TcCoe Idealize.ShloMosaic.ValueIdx

/-! ## The contraction of the 2000-row product -/

abbrev D2000 := dot_S2000x256_S256x256_S2000x256_1_0_0_1_n_n

theorem lhs2000_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs2000_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs2000_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs2000_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The matrix unit's product of a 2000-row block with a 256 × 256 matrix into the zero accumulator, at row `r` and
    column `f`: the sum over the shared axis. -/
theorem matmul2000_apply (l : FVec Ideal S2000x256 .bf16) (y : FVec Ideal S256x256 .bf16) (r : Fin 2000) (f : Fin 256) :
    matmul dot_S2000x256_S256x256_S2000x256_1_0_0_1_n_n none l y (constant S2000x256 .f32 0x00000000#32) (ix2 r f)
      = ∑ k : Fin 256, l (ix2 r k) * y (ix2 k f) := by
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 r f) ((ValueIdx.contrEquiv1 dot_S2000x256_S256x256_S2000x256_1_0_0_1_n_n 256 rfl rfl).symm k) = ix2 r k := funext fun a => Fin.ext (by
    match a with
    | ⟨0, _⟩ => exact lhs2000_0 _ _
    | ⟨1, _⟩ => exact (lhs2000_1 _ _).trans hk)
  have er : dot_S2000x256_S256x256_S2000x256_1_0_0_1_n_n.rhsIdx (ix2 r f) ((ValueIdx.contrEquiv1 dot_S2000x256_S256x256_S2000x256_1_0_0_1_n_n 256 rfl rfl).symm k) = ix2 k f := funext fun a => Fin.ext (by
    match a with
    | ⟨0, _⟩ => exact (rhs2000_0 _ _).trans hk
    | ⟨1, _⟩ => exact rhs2000_1 _ _)
  rw [el, er]

/-! ## The contraction of the 512-row product -/

theorem lhs512_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem lhs512_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
theorem rhs512_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
theorem rhs512_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- The same product for a 512-row block. -/
theorem matmul512_apply (l : FVec Ideal S512x256 .bf16) (y : FVec Ideal S256x256 .bf16) (r : Fin 512) (f : Fin 256) :
    matmul dot_S512x256_S256x256_S512x256_1_0_0_1_n_n none l y (constant S512x256 .f32 0x00000000#32) (ix2 r f)
      = ∑ k : Fin 256, l (ix2 r k) * y (ix2 k f) := by
  simp only [matmul]
  rw [Ideal.matmul_constant_zero_apply, ← Equiv.sum_comp (ValueIdx.contrEquiv1 dot_S512x256_S256x256_S512x256_1_0_0_1_n_n 256 rfl rfl).symm]
  refine Finset.sum_congr rfl fun k _ => ?_
  have hk := ValueIdx.contrEquiv1_symm_val dot_S512x256_S256x256_S512x256_1_0_0_1_n_n 256 rfl rfl k
  have el : dot_S512x256_S256x256_S512x256_1_0_0_1_n_n.lhsIdx (ix2 r f) ((ValueIdx.contrEquiv1 dot_S512x256_S256x256_S512x256_1_0_0_1_n_n 256 rfl rfl).symm k) = ix2 r k := funext fun a => Fin.ext (by
    match a with
    | ⟨0, _⟩ => exact lhs512_0 _ _
    | ⟨1, _⟩ => exact (lhs512_1 _ _).trans hk)
  have er : dot_S512x256_S256x256_S512x256_1_0_0_1_n_n.rhsIdx (ix2 r f) ((ValueIdx.contrEquiv1 dot_S512x256_S256x256_S512x256_1_0_0_1_n_n 256 rfl rfl).symm k) = ix2 k f := funext fun a => Fin.ext (by
    match a with
    | ⟨0, _⟩ => exact (rhs512_0 _ _).trans hk
    | ⟨1, _⟩ => exact rhs512_1 _ _)
  rw [el, er]

/-! ## The layout operations of the bodies -/

/-- The transposed weight matrix at `(k, f)` is the weight matrix at `(f, k)`. -/
theorem wT_apply (w : FVec Ideal S256x256 .bf16) (k f : Fin 256) :
    transpose S256x256 [1, 0] w transposes_S256x256_p1_0_S256x256 (ix2 k f) = w (ix2 f k) :=
  transpose_ix2_apply w transposes_S256x256_p1_0_S256x256 k f

/-- The bias row broadcast down 2000 rows reads the row's entry of the column. -/
theorem bias2000_apply (b : FVec Ideal S1x256 .f32) (r : Fin 2000) (f : Fin 256) :
    broadcastTo S2000x256 (shapeCast S1x256 b shapeCasts_S1x256_S1x256) broadcasts_S1x256_S2000x256 (ix2 r f) = b (ix2 0 f) := by
  rw [shapeCast_self]
  exact broadcastTo_apply b broadcasts_S1x256_S2000x256 (ix2 r f) (ix2 0 f) (fun a => match a with
    | ⟨0, _⟩ => by show (0 : Nat) = if (1 : Nat) = 1 then 0 else r.val; rw [if_pos rfl]
    | ⟨1, _⟩ => by show f.val = if (256 : Nat) = 1 then 0 else f.val; rw [if_neg (by decide)])

/-- The bias row broadcast down 512 rows reads the row's entry of the column. -/
theorem bias512_apply (b : FVec Ideal S1x256 .f32) (r : Fin 512) (f : Fin 256) :
    broadcastTo S512x256 (shapeCast S1x256 b shapeCasts_S1x256_S1x256) broadcasts_S1x256_S512x256 (ix2 r f) = b (ix2 0 f) := by
  rw [shapeCast_self]
  exact broadcastTo_apply b broadcasts_S1x256_S512x256 (ix2 r f) (ix2 0 f) (fun a => match a with
    | ⟨0, _⟩ => by show (0 : Nat) = if (1 : Nat) = 1 then 0 else r.val; rw [if_pos rfl]
    | ⟨1, _⟩ => by show f.val = if (256 : Nat) = 1 then 0 else f.val; rw [if_neg (by decide)])

/-! ## The stored values -/

/-- The first output of the two-output body is the linear layer of its block with the first weights and bias row. -/
theorem pay2_eq (x : Vec Ideal S2000x256 .f32) (w : Vec Ideal S256x256 .f32) (b : Vec Ideal S1x256 .f32) :
    k0_pay2 (F := Ideal) x w b = Cert.Lin.lin x w (fun f => b (ix2 0 f)) := by
  funext j
  obtain ⟨r, f, rfl⟩ : ∃ (r : Fin 2000) (f : Fin 256), j = ix2 r f := ⟨j 0, j 1, eq_ix2 j⟩
  rw [Cert.Lin.lin_ix2]
  unfold k0_pay2 k0_pay1
  refine (addf_apply _ _ _).trans ?_
  refine congrArg₂ (· + ·) ((matmul2000_apply _ _ r f).trans (Finset.sum_congr rfl fun k _ => ?_)) (bias2000_apply b r f)
  exact congrArg (x (ix2 r k) * ·) (wT_apply _ k f)

/-- The second output of the two-output body is the same function of the block and the second weights and bias row. -/
theorem pay3_eq (x : Vec Ideal S2000x256 .f32) (w : Vec Ideal S256x256 .f32) (b : Vec Ideal S1x256 .f32) :
    k0_pay3 (F := Ideal) x w b = Cert.Lin.lin x w (fun f => b (ix2 0 f)) :=
  pay2_eq x w b

/-- The one-output body stores the linear layer of its 512 rows. -/
theorem pay1_eq (x : Vec Ideal S512x256 .f32) (w : Vec Ideal S256x256 .f32) (b : Vec Ideal S1x256 .f32) :
    k1_pay1 (F := Ideal) x w b = Cert.Lin.lin x w (fun f => b (ix2 0 f)) := by
  funext j
  obtain ⟨r, f, rfl⟩ : ∃ (r : Fin 512) (f : Fin 256), j = ix2 r f := ⟨j 0, j 1, eq_ix2 j⟩
  rw [Cert.Lin.lin_ix2]
  unfold k1_pay1
  refine (addf_apply _ _ _).trans ?_
  refine congrArg₂ (· + ·) ((matmul512_apply _ _ r f).trans (Finset.sum_congr rfl fun k _ => ?_)) (bias512_apply b r f)
  exact congrArg (x (ix2 r k) * ·) (wT_apply _ k f)

end Cert.KernelIdeal.Payload

end
-- ==== Proof.Region0.lean ====
/-
  What the first kernel region leaves in its two output arrays.

  The region walks the 30000 rows of its first operand in 15 blocks of 2000 rows. At the point `t` the body reads rows
  `2000 t … 2000 t + 1999` of the operand, both weight matrices and both bias rows whole, and writes back, to the same
  rows of each output array, the linear layer of those rows. A linear layer's output row depends on the input row
  alone, so block `t` of each output is block `t` of the linear layer of the WHOLE operand; the 15 blocks tile the
  array, so each output array ends holding that layer.
-/
import proofs.«171935_j14087492731175_1_alg».proof.Proof.Gen.KernelIdeal.Frame
import proofs.«171935_j14087492731175_1_alg».proof.Proof.Payload
import Idealize.ShloMosaic.Lib.Pipeline.Value

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Lin (row col)

variable (V : (c : Dev nD) → (b : Ref sig .tc) → Buf (Elt Ideal) ((c : Thread nD τ).loc b))

theorem hz : (![0, 0] : Fin 2 → Nat) = fun _ => 0 := funext fun a => by fin_cases a <;> rfl

/-- The region's operand arrays as it finds them, by their literal types. -/
abbrev xs (c : Dev nD) : FVec Ideal S30000x256 .f32 := V c main_arg0
abbrev w1 (c : Dev nD) : FVec Ideal S256x256 .f32 := V c main_arg12
abbrev b1 (c : Dev nD) : FVec Ideal S1x256 .f32 := V c main_v0
abbrev w2 (c : Dev nD) : FVec Ideal S256x256 .f32 := V c main_arg14
abbrev b2 (c : Dev nD) : FVec Ideal S1x256 .f32 := V c main_v1

/-- The blocks the body reads at point `t`, by their literal types. -/
abbrev xblk (c : Dev nD) (t : Fin cfg0.N) : FVec Ideal S2000x256 .f32 := iblk0 V c 0 t
abbrev w1blk (c : Dev nD) (t : Fin cfg0.N) : FVec Ideal S256x256 .f32 := iblk0 V c 1 t
abbrev b1blk (c : Dev nD) (t : Fin cfg0.N) : FVec Ideal S1x256 .f32 := iblk0 V c 2 t
abbrev w2blk (c : Dev nD) (t : Fin cfg0.N) : FVec Ideal S256x256 .f32 := iblk0 V c 3 t
abbrev b2blk (c : Dev nD) (t : Fin cfg0.N) : FVec Ideal S1x256 .f32 := iblk0 V c 4 t

/-- Where point `t`'s block of the first output puts its entry `j` in the array; and of the second output. -/
abbrev at5 (t : Fin cfg0.N) (j : S2000x256.Idx) : S30000x256.Idx := ((cfg0.win 5).blk t).view.emb j
abbrev at6 (t : Fin cfg0.N) (j : S2000x256.Idx) : S30000x256.Idx := ((cfg0.win 6).blk t).view.emb j

/-- The linear layer of the whole operand with the first weights and bias row … -/
def out1 (c : Dev nD) : FVec Ideal S30000x256 .f32 := Cert.Lin.lin (xs V c) (w1 V c) (fun f => b1 V c (ix2 0 f))
/-- … and with the second. -/
def out2 (c : Dev nD) : FVec Ideal S30000x256 .f32 := Cert.Lin.lin (xs V c) (w2 V c) (fun f => b2 V c (ix2 0 f))

/-- The printed index maps, decided over the 15 points: the row-block index of the operand and of both outputs is the
    same, below 15; every other block index is 0. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0
    ∧ win0_6.index t (0 : Fin 2) = win0_5.index t (0 : Fin 2) ∧ win0_6.index t (1 : Fin 2) = 0
    ∧ win0_5.index t (0 : Fin 2) ≤ 14 :=
  (by decide +kernel : ∀ t : Fin grid0.N, _)

/-- Every one of the 15 row blocks is some point's, for either output. -/
theorem idx_onto : ∀ q : Fin 15, ∃ t : Fin cfg0.N, win0_5.index t (0 : Fin 2) = q.val :=
  (by decide +kernel : ∀ q : Fin 15, ∃ t : Fin grid0.N, win0_5.index t (0 : Fin 2) = q.val)

/-! ## The blocks the body reads, entry by entry -/

/-- The operand's block at point `t`, at row `r` and column `k`, is the operand at the row the first output's block
    puts `r` at, column `k`. -/
theorem x_read (c : Dev nD) (t : Fin cfg0.N) (j : S2000x256.Idx) (k : Fin 256) :
    xblk V c t (ix2 (row j) k) = xs V c (ix2 (row (at5 t j)) k) := by
  obtain ⟨e0, e1, -⟩ := idx_facts t
  show V c main_arg0 (((cfg0.win 0).blk t).view.emb (ix2 (row j) k)) = V c main_arg0 (ix2 (row (at5 t j)) k)
  refine congrArg (V c main_arg0) (funext fun a => Fin.ext ?_)
  match a with
  | ⟨0, _⟩ => show win0_0.index t (0 : Fin 2) * 2000 + 1 * (j 0).val = win0_5.index t (0 : Fin 2) * 2000 + 1 * (j 0).val; rw [e0]
  | ⟨1, _⟩ => show win0_0.index t (1 : Fin 2) * 256 + 1 * k.val = k.val; rw [e1]; omega

/-- The same against the SECOND output's block: the same rows. -/
theorem x_read' (c : Dev nD) (t : Fin cfg0.N) (j : S2000x256.Idx) (k : Fin 256) :
    xblk V c t (ix2 (row j) k) = xs V c (ix2 (row (at6 t j)) k) := by
  obtain ⟨e0, e1, -, -, -, -, -, -, -, -, -, e11, -⟩ := idx_facts t
  show V c main_arg0 (((cfg0.win 0).blk t).view.emb (ix2 (row j) k)) = V c main_arg0 (ix2 (row (at6 t j)) k)
  refine congrArg (V c main_arg0) (funext fun a => Fin.ext ?_)
  match a with
  | ⟨0, _⟩ => show win0_0.index t (0 : Fin 2) * 2000 + 1 * (j 0).val = win0_6.index t (0 : Fin 2) * 2000 + 1 * (j 0).val; rw [e0, e11]
  | ⟨1, _⟩ => show win0_0.index t (1 : Fin 2) * 256 + 1 * k.val = k.val; rw [e1]; omega

/-- The first weight matrix's block is the matrix, read at the feature the output's block puts `f` at. -/
theorem w1_read (c : Dev nD) (t : Fin cfg0.N) (j : S2000x256.Idx) (k : Fin 256) :
    w1blk V c t (ix2 (col j) k) = w1 V c (ix2 (col (at5 t j)) k) := by
  obtain ⟨-, -, e2, e3, -, -, -, -, -, -, e10, -⟩ := idx_facts t
  show V c main_arg12 (((cfg0.win 1).blk t).view.emb (ix2 (col j) k)) = V c main_arg12 (ix2 (col (at5 t j)) k)
  refine congrArg (V c main_arg12) (funext fun a => Fin.ext ?_)
  match a with
  | ⟨0, _⟩ => show win0_1.index t (0 : Fin 2) * 256 + 1 * (j 1).val = win0_5.index t (1 : Fin 2) * 256 + 1 * (j 1).val; rw [e2, e10]
  | ⟨1, _⟩ => show win0_1.index t (1 : Fin 2) * 256 + 1 * k.val = k.val; rw [e3]; omega

/-- The first bias row's block is the row, read at that feature. -/
theorem b1_read (c : Dev nD) (t : Fin cfg0.N) (j : S2000x256.Idx) :
    b1blk V c t (ix2 0 (col j)) = b1 V c (ix2 0 (col (at5 t j))) := by
  obtain ⟨-, -, -, -, e4, e5, -, -, -, -, e10, -⟩ := idx_facts t
  show V c main_v0 (((cfg0.win 2).blk t).view.emb (ix2 0 (col j))) = V c main_v0 (ix2 0 (col (at5 t j)))
  refine congrArg (V c main_v0) (funext fun a => Fin.ext ?_)
  match a with
  | ⟨0, _⟩ => show win0_2.index t (0 : Fin 2) * 1 + 1 * 0 = 0; rw [e4]
  | ⟨1, _⟩ => show win0_2.index t (1 : Fin 2) * 256 + 1 * (j 1).val = win0_5.index t (1 : Fin 2) * 256 + 1 * (j 1).val; rw [e5, e10]

/-- The second weight matrix's block, against the second output's block. -/
theorem w2_read (c : Dev nD) (t : Fin cfg0.N) (j : S2000x256.Idx) (k : Fin 256) :
    w2blk V c t (ix2 (col j) k) = w2 V c (ix2 (col (at6 t j)) k) := by
  obtain ⟨-, -, -, -, -, -, e6, e7, -, -, -, -, e12, -⟩ := idx_facts t
  show V c main_arg14 (((cfg0.win 3).blk t).view.emb (ix2 (col j) k)) = V c main_arg14 (ix2 (col (at6 t j)) k)
  refine congrArg (V c main_arg14) (funext fun a => Fin.ext ?_)
  match a with
  | ⟨0, _⟩ => show win0_3.index t (0 : Fin 2) * 256 + 1 * (j 1).val = win0_6.index t (1 : Fin 2) * 256 + 1 * (j 1).val; rw [e6, e12]
  | ⟨1, _⟩ => show win0_3.index t (1 : Fin 2) * 256 + 1 * k.val = k.val; rw [e7]; omega

/-- The second bias row's block. -/
theorem b2_read (c : Dev nD) (t : Fin cfg0.N) (j : S2000x256.Idx) :
    b2blk V c t (ix2 0 (col j)) = b2 V c (ix2 0 (col (at6 t j))) := by
  obtain ⟨-, -, -, -, -, -, -, -, e8, e9, -, -, e12, -⟩ := idx_facts t
  show V c main_v1 (((cfg0.win 4).blk t).view.emb (ix2 0 (col j))) = V c main_v1 (ix2 0 (col (at6 t j)))
  refine congrArg (V c main_v1) (funext fun a => Fin.ext ?_)
  match a with
  | ⟨0, _⟩ => show win0_4.index t (0 : Fin 2) * 1 + 1 * 0 = 0; rw [e8]
  | ⟨1, _⟩ => show win0_4.index t (1 : Fin 2) * 256 + 1 * (j 1).val = win0_6.index t (1 : Fin 2) * 256 + 1 * (j 1).val; rw [e9, e12]

/-! ## What a point writes back -/

/-- The layer of point `t`'s blocks is, entry by entry, the layer of the whole operand where the first output's block
    puts the entry. -/
theorem block5 (c : Dev nD) (t : Fin cfg0.N) (j : S2000x256.Idx) :
    Cert.Lin.lin (xblk V c t) (w1blk V c t) (fun f => b1blk V c t (ix2 0 f)) j = out1 V c (at5 t j) := by
  show (∑ k : Fin 256, xblk V c t (ix2 (row j) k) * w1blk V c t (ix2 (col j) k)) + b1blk V c t (ix2 0 (col j))
    = (∑ k : Fin 256, xs V c (ix2 (row (at5 t j)) k) * w1 V c (ix2 (col (at5 t j)) k)) + b1 V c (ix2 0 (col (at5 t j)))
  rw [b1_read V c t j]
  exact congrArg (· + _) (Finset.sum_congr rfl fun k _ => by rw [x_read V c t j k, w1_read V c t j k])

theorem block6 (c : Dev nD) (t : Fin cfg0.N) (j : S2000x256.Idx) :
    Cert.Lin.lin (xblk V c t) (w2blk V c t) (fun f => b2blk V c t (ix2 0 f)) j = out2 V c (at6 t j) := by
  show (∑ k : Fin 256, xblk V c t (ix2 (row j) k) * w2blk V c t (ix2 (col j) k)) + b2blk V c t (ix2 0 (col j))
    = (∑ k : Fin 256, xs V c (ix2 (row (at6 t j)) k) * w2 V c (ix2 (col (at6 t j)) k)) + b2 V c (ix2 0 (col (at6 t j)))
  rw [b2_read V c t j]
  exact congrArg (· + _) (Finset.sum_congr rfl fun k _ => by rw [x_read' V c t j k, w2_read V c t j k])

/-- What point `t` writes back to the first output is block `t` of the layer of the whole operand. -/
theorem flushed5_eq (c : Dev nD) (t : Fin cfg0.N) :
    (dat0 V c).flushed 5 t = ((cfg0.win 5).blk t).view.read (Elt Ideal) (out1 V c) := by
  show (cfg0.win 5).cut (grid0.coords t) ((dat0 V c).after 5 t) = _
  rw [after0_5]
  unfold out0_5
  rw [View.canon_unit_zero hz]
  simp only [View.ld_unit_zero (S := S2000x256) hz, View.ld_unit_zero (S := S256x256) hz, View.ld_unit_zero (S := S1x256) hz]
  rw [Cert.KernelIdeal.Payload.pay2_eq]
  exact funext fun (j : S2000x256.Idx) => block5 V c t j

/-- What point `t` writes back to the second output, likewise. -/
theorem flushed6_eq (c : Dev nD) (t : Fin cfg0.N) :
    (dat0 V c).flushed 6 t = ((cfg0.win 6).blk t).view.read (Elt Ideal) (out2 V c) := by
  show (cfg0.win 6).cut (grid0.coords t) ((dat0 V c).after 6 t) = _
  rw [after0_6]
  unfold out0_6
  rw [View.canon_unit_zero hz]
  simp only [View.ld_unit_zero (S := S2000x256) hz, View.ld_unit_zero (S := S256x256) hz, View.ld_unit_zero (S := S1x256) hz]
  rw [Cert.KernelIdeal.Payload.pay3_eq]
  exact funext fun (j : S2000x256.Idx) => block6 V c t j

/-! ## The blocks tile the arrays -/

/-- An index of the first output array is in point `t`'s block iff each coordinate is in the block's range. -/
theorem mem_blk5 (t : Fin cfg0.N) (i : S30000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v2_0).slice (win0_5.rect t)).set ↔ _
  rw [View.set_slice_whole, Rect.mem_set_unit]
  exact Iff.rfl

theorem mem_blk6 (t : Fin cfg0.N) (i : S30000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v2_1).slice (win0_6.rect t)).set ↔ _
  rw [View.set_slice_whole, Rect.mem_set_unit]
  exact Iff.rfl

/-- Row `r` of the first output is in the block of the point whose row-block index is `r / 2000`. -/
theorem cover5 (i : S30000x256.Idx) : ∃ t : Fin cfg0.N, (cfg0.win 5).flush t = true ∧ i ∈ ((cfg0.win 5).blk t).view.set := by
  have hi0 : (i 0).val < 30000 := (i 0).isLt
  have hi1 : (i 1).val < 256 := (i 1).isLt
  obtain ⟨t, ht⟩ := idx_onto ⟨(i 0).val / 2000, by omega⟩
  have q0 : win0_5.index t (0 : Fin 2) = (i 0).val / 2000 := ht
  obtain ⟨-, -, -, -, -, -, -, -, -, -, e10, -⟩ := idx_facts t
  refine ⟨t, flush0_5 t, ?_⟩
  rw [mem_blk5]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

theorem cover6 (i : S30000x256.Idx) : ∃ t : Fin cfg0.N, (cfg0.win 6).flush t = true ∧ i ∈ ((cfg0.win 6).blk t).view.set := by
  have hi0 : (i 0).val < 30000 := (i 0).isLt
  have hi1 : (i 1).val < 256 := (i 1).isLt
  obtain ⟨t, ht⟩ := idx_onto ⟨(i 0).val / 2000, by omega⟩
  have q0 : win0_5.index t (0 : Fin 2) = (i 0).val / 2000 := ht
  obtain ⟨-, -, -, -, -, -, -, -, -, -, -, e11, e12, -⟩ := idx_facts t
  refine ⟨t, flush0_6 t, ?_⟩
  rw [mem_blk6]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 256 ≤ (i 1).val ∧ (i 1).val < win0_6.index t (1 : Fin 2) * 256 + 256; omega

/-! ## The arrays after the region -/

/-- The first output array after the region: the linear layer of the whole operand with the first weights. -/
theorem arr5 (c : Dev nD) : (dat0 V c).arrAt 5 cfg0.N = out1 V c :=
  (dat0 V c).arrAt_eq_of_cover 5 (out1 V c) (fun t _ => flushed5_eq V c t) cover5

/-- The second output array after the region: the layer with the second weights. -/
theorem arr6 (c : Dev nD) : (dat0 V c).arrAt 6 cfg0.N = out2 V c :=
  (dat0 V c).arrAt_eq_of_cover 6 (out2 V c) (fun t _ => flushed6_eq V c t) cover6

end Cert.KernelIdeal.Region0

end
-- ==== Proof.Region1.lean ====
/-
  What the second kernel region leaves in its output array.

  The region has one point: the body reads the 512 rows of its operand, the weight matrix and the bias row whole and
  writes back the linear layer of the operand to the whole output array.
-/
import proofs.«171935_j14087492731175_1_alg».proof.Proof.Gen.KernelIdeal.Frame
import proofs.«171935_j14087492731175_1_alg».proof.Proof.Payload
import Idealize.ShloMosaic.Lib.Pipeline.Value

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Lin (row col)

variable (V : (c : Dev nD) → (b : Ref sig .tc) → Buf (Elt Ideal) ((c : Thread nD τ).loc b))

theorem hz : (![0, 0] : Fin 2 → Nat) = fun _ => 0 := funext fun a => by fin_cases a <;> rfl

/-- The region's operand arrays as it finds them, by their literal types. -/
abbrev xs (c : Dev nD) : FVec Ideal S512x256 .f32 := V c main_arg1
abbrev w3 (c : Dev nD) : FVec Ideal S256x256 .f32 := V c main_arg16
abbrev b3 (c : Dev nD) : FVec Ideal S1x256 .f32 := V c main_v3

/-- The blocks the body reads at the point, by their literal types. -/
abbrev xblk (c : Dev nD) (t : Fin cfg1.N) : FVec Ideal S512x256 .f32 := iblk1 V c 0 t
abbrev wblk (c : Dev nD) (t : Fin cfg1.N) : FVec Ideal S256x256 .f32 := iblk1 V c 1 t
abbrev bblk (c : Dev nD) (t : Fin cfg1.N) : FVec Ideal S1x256 .f32 := iblk1 V c 2 t

/-- Where the output's block puts its entry `j` in the array. -/
abbrev at3 (t : Fin cfg1.N) (j : S512x256.Idx) : S512x256.Idx := ((cfg1.win 3).blk t).view.emb j

/-- The linear layer of the operand. -/
def out3 (c : Dev nD) : FVec Ideal S512x256 .f32 := Cert.Lin.lin (xs V c) (w3 V c) (fun f => b3 V c (ix2 0 f))

/-- The printed index maps at the one point: every block index is 0. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

theorem x_read (c : Dev nD) (t : Fin cfg1.N) (j : S512x256.Idx) (k : Fin 256) :
    xblk V c t (ix2 (row j) k) = xs V c (ix2 (row (at3 t j)) k) := by
  obtain ⟨e0, e1, -, -, -, -, e6, -⟩ := idx_facts t
  show V c main_arg1 (((cfg1.win 0).blk t).view.emb (ix2 (row j) k)) = V c main_arg1 (ix2 (row (at3 t j)) k)
  refine congrArg (V c main_arg1) (funext fun a => Fin.ext ?_)
  match a with
  | ⟨0, _⟩ => show win1_0.index t (0 : Fin 2) * 512 + 1 * (j 0).val = win1_3.index t (0 : Fin 2) * 512 + 1 * (j 0).val; rw [e0, e6]
  | ⟨1, _⟩ => show win1_0.index t (1 : Fin 2) * 256 + 1 * k.val = k.val; rw [e1]; omega

theorem w_read (c : Dev nD) (t : Fin cfg1.N) (j : S512x256.Idx) (k : Fin 256) :
    wblk V c t (ix2 (col j) k) = w3 V c (ix2 (col (at3 t j)) k) := by
  obtain ⟨-, -, e2, e3, -, -, -, e7⟩ := idx_facts t
  show V c main_arg16 (((cfg1.win 1).blk t).view.emb (ix2 (col j) k)) = V c main_arg16 (ix2 (col (at3 t j)) k)
  refine congrArg (V c main_arg16) (funext fun a => Fin.ext ?_)
  match a with
  | ⟨0, _⟩ => show win1_1.index t (0 : Fin 2) * 256 + 1 * (j 1).val = win1_3.index t (1 : Fin 2) * 256 + 1 * (j 1).val; rw [e2, e7]
  | ⟨1, _⟩ => show win1_1.index t (1 : Fin 2) * 256 + 1 * k.val = k.val; rw [e3]; omega

theorem b_read (c : Dev nD) (t : Fin cfg1.N) (j : S512x256.Idx) :
    bblk V c t (ix2 0 (col j)) = b3 V c (ix2 0 (col (at3 t j))) := by
  obtain ⟨-, -, -, -, e4, e5, -, e7⟩ := idx_facts t
  show V c main_v3 (((cfg1.win 2).blk t).view.emb (ix2 0 (col j))) = V c main_v3 (ix2 0 (col (at3 t j)))
  refine congrArg (V c main_v3) (funext fun a => Fin.ext ?_)
  match a with
  | ⟨0, _⟩ => show win1_2.index t (0 : Fin 2) * 1 + 1 * 0 = 0; rw [e4]
  | ⟨1, _⟩ => show win1_2.index t (1 : Fin 2) * 256 + 1 * (j 1).val = win1_3.index t (1 : Fin 2) * 256 + 1 * (j 1).val; rw [e5, e7]

/-- The layer of the point's blocks is, entry by entry, the layer of the operand where the output's block puts the entry. -/
theorem block3 (c : Dev nD) (t : Fin cfg1.N) (j : S512x256.Idx) :
    Cert.Lin.lin (xblk V c t) (wblk V c t) (fun f => bblk V c t (ix2 0 f)) j = out3 V c (at3 t j) := by
  show (∑ k : Fin 256, xblk V c t (ix2 (row j) k) * wblk V c t (ix2 (col j) k)) + bblk V c t (ix2 0 (col j))
    = (∑ k : Fin 256, xs V c (ix2 (row (at3 t j)) k) * w3 V c (ix2 (col (at3 t j)) k)) + b3 V c (ix2 0 (col (at3 t j)))
  rw [b_read V c t j]
  exact congrArg (· + _) (Finset.sum_congr rfl fun k _ => by rw [x_read V c t j k, w_read V c t j k])

/-- What the point writes back is the layer of the operand, read through the output's one block. -/
theorem flushed3_eq (c : Dev nD) (t : Fin cfg1.N) :
    (dat1 V c).flushed 3 t = ((cfg1.win 3).blk t).view.read (Elt Ideal) (out3 V c) := by
  show (cfg1.win 3).cut (grid1.coords t) ((dat1 V c).after 3 t) = _
  rw [after1_3]
  unfold out1_3
  rw [View.canon_unit_zero hz]
  simp only [View.ld_unit_zero (S := S512x256) hz, View.ld_unit_zero (S := S256x256) hz, View.ld_unit_zero (S := S1x256) hz]
  rw [Cert.KernelIdeal.Payload.pay1_eq]
  exact funext fun (j : S512x256.Idx) => block3 V c t j

theorem mem_blk3 (t : Fin cfg1.N) (i : S512x256.Idx) :
    i ∈ ((cfg1.win 3).blk t).view.set ↔ ∀ a : Fin 2, win1_3.index t a * S512x256.size a ≤ (i a).val ∧ (i a).val < win1_3.index t a * S512x256.size a + S512x256.size a := by
  show i ∈ ((View.whole main_v4).slice (win1_3.rect t)).set ↔ _
  rw [View.set_slice_whole, Rect.mem_set_unit]
  exact Iff.rfl

/-- The one block is the whole array. -/
theorem cover3 (i : S512x256.Idx) : ∃ t : Fin cfg1.N, (cfg1.win 3).flush t = true ∧ i ∈ ((cfg1.win 3).blk t).view.set := by
  have hi0 : (i 0).val < 512 := (i 0).isLt
  have hi1 : (i 1).val < 256 := (i 1).isLt
  obtain ⟨-, -, -, -, -, -, e6, e7⟩ := idx_facts t1_0
  refine ⟨t1_0, flush1_3 t1_0, ?_⟩
  rw [mem_blk3]
  intro a
  match a with
  | ⟨0, _⟩ => show win1_3.index t1_0 (0 : Fin 2) * 512 ≤ (i 0).val ∧ (i 0).val < win1_3.index t1_0 (0 : Fin 2) * 512 + 512; omega
  | ⟨1, _⟩ => show win1_3.index t1_0 (1 : Fin 2) * 256 ≤ (i 1).val ∧ (i 1).val < win1_3.index t1_0 (1 : Fin 2) * 256 + 256; omega

/-- The output array after the region: the linear layer of the operand. -/
theorem arr3 (c : Dev nD) : (dat1 V c).arrAt 3 cfg1.N = out3 V c :=
  (dat1 V c).arrAt_eq_of_cover 3 (out3 V c) (fun t _ => flushed3_eq V c t) cover3

end Cert.KernelIdeal.Region1

end
-- ==== Proof.Result.lean ====
/-
  The idealized kernel program's two computed results as functions of the launch memory.

  The topic nodes' result is the word-to-topic mean of the linear layer of the word features with the first weights and
  bias; the document nodes' result is the cut-off sum of the word-to-document mean of the layer with the second weights
  and the topic-to-document mean of the layer of the topic features with the third. Each layer is what its kernel
  region leaves in its output array, the region's operands read back to the arguments (a bias vector reshaped to one
  row reads its entry at the column).
-/
import proofs.«171935_j14087492731175_1_alg».proof.Proof.Fold
import proofs.«171935_j14087492731175_1_alg».proof.Proof.Region0
import proofs.«171935_j14087492731175_1_alg».proof.Proof.Region1
import Idealize.ShloMosaic.Lib.ValueLayout

set_option maxRecDepth 16384

noncomputable section

namespace Cert.KernelIdeal.Result

open Cert.KernelIdeal Cert.KernelIdeal.Gen Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ) (ρ : Dev nD → PrngReg)

/-- A bias vector as the function of the feature a linear layer takes. -/
abbrev biasOf (b : FVec Ideal S256 .f32) : Fin 256 → EReal := fun f => b (ix1 f)

/-- A bias vector reshaped to one row, read at the row's column `f`, is the vector's entry `f`. -/
theorem bias_row (b : FVec Ideal S256 .f32) :
    (fun f : Fin 256 => shapeCast S1x256 b shapeCasts_S256_S1x256 (ix2 0 f)) = biasOf b :=
  funext fun f => shapeCast_a_1a_apply b shapeCasts_S256_S1x256 0 f

/-- The word features' layer with the first weights and bias. -/
def layerWt (c : Dev nD) : FVec Ideal S30000x256 .f32 :=
  Cert.Lin.lin (m ((c : Thread nD τ).loc main_arg0)) (m ((c : Thread nD τ).loc main_arg12)) (biasOf (m ((c : Thread nD τ).loc main_arg13)))
/-- The word features' layer with the second weights and bias. -/
def layerWd (c : Dev nD) : FVec Ideal S30000x256 .f32 :=
  Cert.Lin.lin (m ((c : Thread nD τ).loc main_arg0)) (m ((c : Thread nD τ).loc main_arg14)) (biasOf (m ((c : Thread nD τ).loc main_arg15)))
/-- The topic features' layer with the third weights and bias. -/
def layerTd (c : Dev nD) : FVec Ideal S512x256 .f32 :=
  Cert.Lin.lin (m ((c : Thread nD τ).loc main_arg1)) (m ((c : Thread nD τ).loc main_arg16)) (biasOf (m ((c : Thread nD τ).loc main_arg17)))

/-- The first region's first output array is the first layer. -/
theorem arr_wt (c : Dev nD) : (dat0 (V1 m ρ) c).arrAt 5 cfg0.N = layerWt m c := by
  rw [Region0.arr5]
  unfold Region0.out1 layerWt Region0.xs Region0.w1 Region0.b1
  rw [Fold.V1_arg0, Fold.V1_arg12, Fold.V1_v0, bias_row]

/-- The first region's second output array is the second layer. -/
theorem arr_wd (c : Dev nD) : (dat0 (V1 m ρ) c).arrAt 6 cfg0.N = layerWd m c := by
  rw [Region0.arr6]
  unfold Region0.out2 layerWd Region0.xs Region0.w2 Region0.b2
  rw [Fold.V1_arg0, Fold.V1_arg14, Fold.V1_v1, bias_row]

/-- The second region's output array is the third layer. -/
theorem arr_td (c : Dev nD) : (dat1 (V3 m ρ) c).arrAt 3 cfg1.N = layerTd m c := by
  rw [Region1.arr3]
  unfold Region1.out3 layerTd Region1.xs Region1.w3 Region1.b3
  rw [Fold.V3_arg1, Fold.V3_arg16, Fold.V3_v3, bias_row]

/-- The topic nodes' result. -/
theorem topic (c : Dev nD) : W6 m ρ c (Proc.devRef .tc main_v26)
    = Tail.wordToTopic (layerWt m c) (m ((c : Thread nD τ).loc main_arg3)) (m ((c : Thread nD τ).loc main_arg4)) (m ((c : Thread nD τ).loc main_arg9)) := by
  rw [Fold.topic_eq, Fold.W4_v2_0, Fold.W4_arg3, Fold.W4_arg4, Fold.W4_arg9, arr_wt]

/-- The document nodes' result. -/
theorem doc (c : Dev nD) : W6 m ρ c (Proc.devRef .tc main_v72)
    = Tail.doc (layerWd m c) (layerTd m c)
        (m ((c : Thread nD τ).loc main_arg5)) (m ((c : Thread nD τ).loc main_arg6)) (m ((c : Thread nD τ).loc main_arg10))
        (m ((c : Thread nD τ).loc main_arg7)) (m ((c : Thread nD τ).loc main_arg8)) (m ((c : Thread nD τ).loc main_arg11)) := by
  rw [Fold.doc_eq, Fold.W4_v2_1, Fold.W4_v4, Fold.W4_arg5, Fold.W4_arg6, Fold.W4_arg10, Fold.W4_arg7, Fold.W4_arg8, Fold.W4_arg11, arr_wd, arr_td]

end Cert.KernelIdeal.Result

end
-- ==== Proof.RefValue.lean ====
/-
  The idealized reference program's two computed results as the same functions of the arguments as the kernel
  program's.

  Each of the reference's three linear layers is a product with the transposed weight matrix plus the bias vector
  broadcast through a one-row matrix down the rows: at row `r`, feature `f` the sum over `k` of `x r k * w f k`
  plus `b f`, the layer `Lin.lin`. What the reference does with the layers afterwards is, operation for operation,
  what the kernel program does.
-/
import proofs.«171935_j14087492731175_1_alg».proof.Proof.Gen.ReferenceIdeal.Run
import proofs.«171935_j14087492731175_1_alg».proof.Proof.Gen.ReferenceIdeal.Read
import proofs.«171935_j14087492731175_1_alg».proof.Proof.Lin
import proofs.«171935_j14087492731175_1_alg».proof.Proof.Tail

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.TcCoe Idealize.ShloMosaic.ValueIdx

/-! ## The three linear layers -/

/-- The word features' layer with the first weights and bias. -/
theorem layer_wt (x0 : FVec Ideal S30000x256 .f32) (x12 : FVec Ideal S256x256 .f32) (x13 : FVec Ideal S256 .f32) :
    val_main_v4 (F := Ideal) x0 x12 x13 = Cert.Lin.lin x0 x12 (fun f => x13 (ix1 f)) := by
  funext i
  rw [val_main_v4_apply, val_main_v1_apply, val_main_v3_apply, val_main_v2_apply]
  simp only [val_main_v0_apply]
  have e1 : ∀ k : Fin 256, lidx_main_v1 i k = ix2 (Cert.Lin.row i) k := fun k => funext fun a => by
    match a with
    | ⟨0, _⟩ => rfl
    | ⟨1, _⟩ => rfl
  have e2 : ∀ k : Fin 256, idx_main_v0 (ridx_main_v1 i k) = ix2 (Cert.Lin.col i) k := fun k => funext fun a => by
    match a with
    | ⟨0, _⟩ => rfl
    | ⟨1, _⟩ => rfl
  have e3 : idx_main_v2 (idx_main_v3 i) = ix1 (Cert.Lin.col i) := funext fun a => by
    match a with
    | ⟨0, _⟩ => rfl
  simp only [e1, e2, e3]
  rfl

/-- The word features' layer with the second weights and bias. -/
theorem layer_wd (x0 : FVec Ideal S30000x256 .f32) (x14 : FVec Ideal S256x256 .f32) (x15 : FVec Ideal S256 .f32) :
    val_main_v9 (F := Ideal) x0 x14 x15 = Cert.Lin.lin x0 x14 (fun f => x15 (ix1 f)) := by
  funext i
  rw [val_main_v9_apply, val_main_v6_apply, val_main_v8_apply, val_main_v7_apply]
  simp only [val_main_v5_apply]
  have e1 : ∀ k : Fin 256, lidx_main_v6 i k = ix2 (Cert.Lin.row i) k := fun k => funext fun a => by
    match a with
    | ⟨0, _⟩ => rfl
    | ⟨1, _⟩ => rfl
  have e2 : ∀ k : Fin 256, idx_main_v5 (ridx_main_v6 i k) = ix2 (Cert.Lin.col i) k := fun k => funext fun a => by
    match a with
    | ⟨0, _⟩ => rfl
    | ⟨1, _⟩ => rfl
  have e3 : idx_main_v7 (idx_main_v8 i) = ix1 (Cert.Lin.col i) := funext fun a => by
    match a with
    | ⟨0, _⟩ => rfl
  simp only [e1, e2, e3]
  rfl

/-- The topic features' layer with the third weights and bias. -/
theorem layer_td (x1 : FVec Ideal S512x256 .f32) (x16 : FVec Ideal S256x256 .f32) (x17 : FVec Ideal S256 .f32) :
    val_main_v14 (F := Ideal) x1 x16 x17 = Cert.Lin.lin x1 x16 (fun f => x17 (ix1 f)) := by
  funext i
  rw [val_main_v14_apply, val_main_v11_apply, val_main_v13_apply, val_main_v12_apply]
  simp only [val_main_v10_apply]
  have e1 : ∀ k : Fin 256, lidx_main_v11 i k = ix2 (Cert.Lin.row i) k := fun k => funext fun a => by
    match a with
    | ⟨0, _⟩ => rfl
    | ⟨1, _⟩ => rfl
  have e2 : ∀ k : Fin 256, idx_main_v10 (ridx_main_v11 i k) = ix2 (Cert.Lin.col i) k := fun k => funext fun a => by
    match a with
    | ⟨0, _⟩ => rfl
    | ⟨1, _⟩ => rfl
  have e3 : idx_main_v12 (idx_main_v13 i) = ix1 (Cert.Lin.col i) := funext fun a => by
    match a with
    | ⟨0, _⟩ => rfl
  simp only [e1, e2, e3]
  rfl

/-! ## The two results -/

/-- The topic nodes' result: the word-to-topic mean of the first layer. -/
theorem topic (x0 : FVec Ideal S30000x256 .f32) (x3 x4 : IVec S262144 32) (x9 : FVec Ideal S262144 .f32)
    (x12 : FVec Ideal S256x256 .f32) (x13 : FVec Ideal S256 .f32) :
    (Host.divf (Host.scatterAdd scatter_S512x256_S262144x1_S262144x256_1_0_0_1 (broadcastInDim S512x256 ![] bcast_S_S512x256 (constant S_ .f32 0x00000000#32)) (broadcastInDim S262144x1 ![0] bcast_S262144_S262144x1_0 x4) (mulf (Host.gather gather_S30000x256_S262144x1_S262144x256_1_0_n_n_0_1_1256 (addf (Host.dotGeneral dot_S30000x256_S256x256_S30000x256_1_0_0_1_n_n none x0 (transpose S256x256 [1, 0] x12 transposes_S256x256_S256x256_1_0)) (broadcastInDim S30000x256 ![0, 1] bcast_S1x256_S30000x256_0_1 (broadcastInDim S1x256 ![1] bcast_S256_S1x256_1 x13))) (broadcastInDim S262144x1 ![0] bcast_S262144_S262144x1_0 (select (cmpi .slt x3 (broadcastInDim S262144 ![] bcast_S_S262144 (constantI S_ 32 0#32))) (addi x3 (broadcastInDim S262144 ![] bcast_S_S262144 (constantI S_ 32 30000#32))) x3))) (broadcastInDim S262144x256 ![0, 1] bcast_S262144x1_S262144x256_0_1 (broadcastInDim S262144x1 ![0] bcast_S262144_S262144x1_0 x9)))) (broadcastInDim S512x256 ![0, 1] bcast_S512x1_S512x256_0_1 (broadcastInDim S512x1 ![0] bcast_S512_S512x1_0 (maximumf (Host.scatterAdd scatter_S512_S262144x1_S262144_n_0_0_1 (broadcastInDim S512 ![] bcast_S_S512 (constant S_ .f32 0x00000000#32)) (broadcastInDim S262144x1 ![0] bcast_S262144_S262144x1_0 x4) (broadcastInDim S262144 ![] bcast_S_S262144 (constant S_ .f32 0x3F800000#32))) (broadcastInDim S512 ![] bcast_S_S512 (constant S_ .f32 0x3F800000#32))))) : FVec Ideal S512x256 .f32)
      = Cert.KernelIdeal.Tail.wordToTopic (Cert.Lin.lin x0 x12 (fun f => x13 (ix1 f))) x3 x4 x9 := by
  rw [← layer_wt]
  rfl

/-- The document nodes' result: the two means into the document nodes of the second and third layers, added and cut
    off below at zero. -/
theorem doc (x0 : FVec Ideal S30000x256 .f32) (x1 : FVec Ideal S512x256 .f32) (x5 x6 : IVec S262144 32) (x7 x8 : IVec S131072 32)
    (x10 : FVec Ideal S262144 .f32) (x11 : FVec Ideal S131072 .f32)
    (x14 : FVec Ideal S256x256 .f32) (x15 : FVec Ideal S256 .f32) (x16 : FVec Ideal S256x256 .f32) (x17 : FVec Ideal S256 .f32) :
    (maximumf (addf (Host.divf (Host.scatterAdd scatter_S10000x256_S262144x1_S262144x256_1_0_0_1 (broadcastInDim S10000x256 ![] bcast_S_S10000x256 (constant S_ .f32 0x00000000#32)) (broadcastInDim S262144x1 ![0] bcast_S262144_S262144x1_0 x6) (mulf (Host.gather gather_S30000x256_S262144x1_S262144x256_1_0_n_n_0_1_1256 (addf (Host.dotGeneral dot_S30000x256_S256x256_S30000x256_1_0_0_1_n_n none x0 (transpose S256x256 [1, 0] x14 transposes_S256x256_S256x256_1_0)) (broadcastInDim S30000x256 ![0, 1] bcast_S1x256_S30000x256_0_1 (broadcastInDim S1x256 ![1] bcast_S256_S1x256_1 x15))) (broadcastInDim S262144x1 ![0] bcast_S262144_S262144x1_0 (select (cmpi .slt x5 (broadcastInDim S262144 ![] bcast_S_S262144 (constantI S_ 32 0#32))) (addi x5 (broadcastInDim S262144 ![] bcast_S_S262144 (constantI S_ 32 30000#32))) x5))) (broadcastInDim S262144x256 ![0, 1] bcast_S262144x1_S262144x256_0_1 (broadcastInDim S262144x1 ![0] bcast_S262144_S262144x1_0 x10)))) (broadcastInDim S10000x256 ![0, 1] bcast_S10000x1_S10000x256_0_1 (broadcastInDim S10000x1 ![0] bcast_S10000_S10000x1_0 (maximumf (Host.scatterAdd scatter_S10000_S262144x1_S262144_n_0_0_1 (broadcastInDim S10000 ![] bcast_S_S10000 (constant S_ .f32 0x00000000#32)) (broadcastInDim S262144x1 ![0] bcast_S262144_S262144x1_0 x6) (broadcastInDim S262144 ![] bcast_S_S262144 (constant S_ .f32 0x3F800000#32))) (broadcastInDim S10000 ![] bcast_S_S10000 (constant S_ .f32 0x3F800000#32)))))) (Host.divf (Host.scatterAdd scatter_S10000x256_S131072x1_S131072x256_1_0_0_1 (broadcastInDim S10000x256 ![] bcast_S_S10000x256 (constant S_ .f32 0x00000000#32)) (broadcastInDim S131072x1 ![0] bcast_S131072_S131072x1_0 x8) (mulf (Host.gather gather_S512x256_S131072x1_S131072x256_1_0_n_n_0_1_1256 (addf (Host.dotGeneral dot_S512x256_S256x256_S512x256_1_0_0_1_n_n none x1 (transpose S256x256 [1, 0] x16 transposes_S256x256_S256x256_1_0)) (broadcastInDim S512x256 ![0, 1] bcast_S1x256_S512x256_0_1 (broadcastInDim S1x256 ![1] bcast_S256_S1x256_1 x17))) (broadcastInDim S131072x1 ![0] bcast_S131072_S131072x1_0 (select (cmpi .slt x7 (broadcastInDim S131072 ![] bcast_S_S131072 (constantI S_ 32 0#32))) (addi x7 (broadcastInDim S131072 ![] bcast_S_S131072 (constantI S_ 32 512#32))) x7))) (broadcastInDim S131072x256 ![0, 1] bcast_S131072x1_S131072x256_0_1 (broadcastInDim S131072x1 ![0] bcast_S131072_S131072x1_0 x11)))) (broadcastInDim S10000x256 ![0, 1] bcast_S10000x1_S10000x256_0_1 (broadcastInDim S10000x1 ![0] bcast_S10000_S10000x1_0 (maximumf (Host.scatterAdd scatter_S10000_S131072x1_S131072_n_0_0_1 (broadcastInDim S10000 ![] bcast_S_S10000 (constant S_ .f32 0x00000000#32)) (broadcastInDim S131072x1 ![0] bcast_S131072_S131072x1_0 x8) (broadcastInDim S131072 ![] bcast_S_S131072 (constant S_ .f32 0x3F800000#32))) (broadcastInDim S10000 ![] bcast_S_S10000 (constant S_ .f32 0x3F800000#32))))))) (broadcastInDim S10000x256 ![] bcast_S_S10000x256 (constant S_ .f32 0x00000000#32)) : FVec Ideal S10000x256 .f32)
      = Cert.KernelIdeal.Tail.doc (Cert.Lin.lin x0 x14 (fun f => x15 (ix1 f))) (Cert.Lin.lin x1 x16 (fun f => x17 (ix1 f))) x5 x6 x10 x7 x8 x11 := by
  rw [← layer_wd, ← layer_td]
  rfl

end Cert.ReferenceIdeal.RefValue

end
-- ==== Proof.lean ====
/-
  The certificate: the kernel program and the reference compute, on the extended reals, the same three results.

  The first result is the word features, returned untouched by both. For the other two, each program applies three
  linear layers (word features with two weight matrices, topic features with a third) and then the same host
  operations: three weighted mean aggregations along the edges and, for the document nodes, a sum cut off below at
  zero. The kernel program computes its layers in two kernel regions: on the extended reals the narrowing to bf16
  changes nothing, the matrix unit's product into a zero accumulator is the plain sum of products, and the blocks of
  rows tile the arrays, so each region's output array holds the layer `Lin.lin` of the whole operand; the reference's
  `dot_general` with the transposed weights plus the broadcast bias is the same sum. No algebraic law beyond that
  reading is needed, and finiteness of the inputs is not used.

  The three frames are the generated ones (the reference's is its generated run with the results dropped); nothing was
  rewritten by the idealization, so there is nothing to preserve.
-/
import proofs.«171935_j14087492731175_1_alg».proof.Defs
import proofs.«171935_j14087492731175_1_alg».proof.Proof.Gen.Kernel
import proofs.«171935_j14087492731175_1_alg».proof.Proof.Gen.Kernel.Skeleton
import proofs.«171935_j14087492731175_1_alg».proof.Proof.Gen.Kernel.Launch
import proofs.«171935_j14087492731175_1_alg».proof.Proof.Gen.Kernel.Points
import proofs.«171935_j14087492731175_1_alg».proof.Proof.Gen.Kernel.Frame
import proofs.«171935_j14087492731175_1_alg».proof.Proof.Gen.KernelIdeal
import proofs.«171935_j14087492731175_1_alg».proof.Proof.Gen.KernelIdeal.Skeleton
import proofs.«171935_j14087492731175_1_alg».proof.Proof.Gen.KernelIdeal.Launch
import proofs.«171935_j14087492731175_1_alg».proof.Proof.Gen.KernelIdeal.Points
import proofs.«171935_j14087492731175_1_alg».proof.Proof.Gen.KernelIdeal.Frame
import proofs.«171935_j14087492731175_1_alg».proof.Proof.Gen.ReferenceIdeal
import proofs.«171935_j14087492731175_1_alg».proof.Proof.Gen.ReferenceIdeal.Run
import proofs.«171935_j14087492731175_1_alg».proof.Proof.Gen.Pre_finite_inputs
import proofs.«171935_j14087492731175_1_alg».proof.Proof.KernelIdealRun
import proofs.«171935_j14087492731175_1_alg».proof.Proof.Result
import proofs.«171935_j14087492731175_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- The idealized kernel program's run with its three results named: the word features as launched, the topic nodes'
    and the document nodes' results as the aggregations of the three layers of the arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_v26)
          = Cert.KernelIdeal.Tail.wordToTopic (Cert.KernelIdeal.Result.layerWt m c)
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg9))
      ∧ r.2.mem ((c.tc : Thread Cert.KernelIdeal.nD Cert.KernelIdeal.τ).loc Cert.KernelIdeal.main_v72)
          = Cert.KernelIdeal.Tail.doc (Cert.KernelIdeal.Result.layerWd m c) (Cert.KernelIdeal.Result.layerTd m c)
              (m ((c.tc : Thread Cert.KernelIdeal.nD Cert.KernelIdeal.τ).loc Cert.KernelIdeal.main_arg5))
              (m ((c.tc : Thread Cert.KernelIdeal.nD Cert.KernelIdeal.τ).loc Cert.KernelIdeal.main_arg6))
              (m ((c.tc : Thread Cert.KernelIdeal.nD Cert.KernelIdeal.τ).loc Cert.KernelIdeal.main_arg10))
              (m ((c.tc : Thread Cert.KernelIdeal.nD Cert.KernelIdeal.τ).loc Cert.KernelIdeal.main_arg7))
              (m ((c.tc : Thread Cert.KernelIdeal.nD Cert.KernelIdeal.τ).loc Cert.KernelIdeal.main_arg8))
              (m ((c.tc : Thread Cert.KernelIdeal.nD Cert.KernelIdeal.τ).loc Cert.KernelIdeal.main_arg11))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)) :=
  (θ_run Cert.KernelIdeal.defs _ _).mono (fun r h c =>
      ⟨(h c _ (Cert.KernelIdeal.Gen.mem_uc Cert.KernelIdeal.main_arg0 (by decide))).trans (Cert.KernelIdeal.Gen.W6_main_arg0 m ρ c),
        (h c _ (Cert.KernelIdeal.Gen.mem_uc Cert.KernelIdeal.main_v26 (by decide))).trans (Cert.KernelIdeal.Result.topic m ρ c),
        (h c _ (Cert.KernelIdeal.Gen.mem_uc Cert.KernelIdeal.main_v72 (by decide))).trans (Cert.KernelIdeal.Result.doc m ρ c),
        (h c _ (Cert.KernelIdeal.Gen.mem_uc Cert.KernelIdeal.main_arg0 (by decide))).trans (Cert.KernelIdeal.Gen.W6_main_arg0 m ρ c),
        (h c _ (Cert.KernelIdeal.Gen.mem_uc Cert.KernelIdeal.main_arg1 (by decide))).trans (Cert.KernelIdeal.Gen.W6_main_arg1 m ρ c),
        (h c _ (Cert.KernelIdeal.Gen.mem_uc Cert.KernelIdeal.main_arg2 (by decide))).trans (Cert.KernelIdeal.Gen.W6_main_arg2 m ρ c),
        (h c _ (Cert.KernelIdeal.Gen.mem_uc Cert.KernelIdeal.main_arg3 (by decide))).trans (Cert.KernelIdeal.Gen.W6_main_arg3 m ρ c),
        (h c _ (Cert.KernelIdeal.Gen.mem_uc Cert.KernelIdeal.main_arg4 (by decide))).trans (Cert.KernelIdeal.Gen.W6_main_arg4 m ρ c),
        (h c _ (Cert.KernelIdeal.Gen.mem_uc Cert.KernelIdeal.main_arg5 (by decide))).trans (Cert.KernelIdeal.Gen.W6_main_arg5 m ρ c),
        (h c _ (Cert.KernelIdeal.Gen.mem_uc Cert.KernelIdeal.main_arg6 (by decide))).trans (Cert.KernelIdeal.Gen.W6_main_arg6 m ρ c),
        (h c _ (Cert.KernelIdeal.Gen.mem_uc Cert.KernelIdeal.main_arg7 (by decide))).trans (Cert.KernelIdeal.Gen.W6_main_arg7 m ρ c),
        (h c _ (Cert.KernelIdeal.Gen.mem_uc Cert.KernelIdeal.main_arg8 (by decide))).trans (Cert.KernelIdeal.Gen.W6_main_arg8 m ρ c),
        (h c _ (Cert.KernelIdeal.Gen.mem_uc Cert.KernelIdeal.main_arg9 (by decide))).trans (Cert.KernelIdeal.Gen.W6_main_arg9 m ρ c),
        (h c _ (Cert.KernelIdeal.Gen.mem_uc Cert.KernelIdeal.main_arg10 (by decide))).trans (Cert.KernelIdeal.Gen.W6_main_arg10 m ρ c),
        (h c _ (Cert.KernelIdeal.Gen.mem_uc Cert.KernelIdeal.main_arg11 (by decide))).trans (Cert.KernelIdeal.Gen.W6_main_arg11 m ρ c),
        (h c _ (Cert.KernelIdeal.Gen.mem_uc Cert.KernelIdeal.main_arg12 (by decide))).trans (Cert.KernelIdeal.Gen.W6_main_arg12 m ρ c),
        (h c _ (Cert.KernelIdeal.Gen.mem_uc Cert.KernelIdeal.main_arg13 (by decide))).trans (Cert.KernelIdeal.Gen.W6_main_arg13 m ρ c),
        (h c _ (Cert.KernelIdeal.Gen.mem_uc Cert.KernelIdeal.main_arg14 (by decide))).trans (Cert.KernelIdeal.Gen.W6_main_arg14 m ρ c),
        (h c _ (Cert.KernelIdeal.Gen.mem_uc Cert.KernelIdeal.main_arg15 (by decide))).trans (Cert.KernelIdeal.Gen.W6_main_arg15 m ρ c),
        (h c _ (Cert.KernelIdeal.Gen.mem_uc Cert.KernelIdeal.main_arg16 (by decide))).trans (Cert.KernelIdeal.Gen.W6_main_arg16 m ρ c),
        (h c _ (Cert.KernelIdeal.Gen.mem_uc Cert.KernelIdeal.main_arg17 (by decide))).trans (Cert.KernelIdeal.Gen.W6_main_arg17 m ρ c)⟩)
    (Cert.KernelIdeal.Outcome.run_all (F := Ideal) m ρ)

/-- From memories agreeing on the arguments the two idealized programs end with equal results: the reference's terms
    are the kernel program's functions of the arguments (`RefValue.topic`, `RefValue.doc`). -/
theorem algebraic : Cert.algebraic_KernelIdeal_ReferenceIdeal := by
  intro m ρ m' ρ' _ hagree
  refine ⟨_, _, _, kernel_run m ρ, ?_⟩
  refine (θ_run Cert.ReferenceIdeal.defs _ _).mono (fun r h c => ?_) (Cert.ReferenceIdeal.Value.run (F := Ideal) m' ρ')
  obtain ⟨h0, h1, h2, h3, h4, h5, h6, h7, h8, h9, h10, h11, h12, h13, h14, h15, h16, h17⟩ := hagree c
  refine ⟨(h c).1.trans h0, (h c).2.1.trans ?_, (h c).2.2.1.trans ?_, (h c).2.2.2⟩
  · rw [h0, h3, h4, h9, h12, h13]
    exact Cert.ReferenceIdeal.RefValue.topic _ _ _ _ _ _
  · rw [h0, h1, h5, h6, h7, h8, h10, h11, h14, h15, h16, h17]
    exact Cert.ReferenceIdeal.RefValue.doc _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
